-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x121 : Shape := ⟨2, ![64, 121]⟩
abbrev S121 : Shape := ⟨1, ![121]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x121 : S_.BroadcastsInDim S64x121 (![] : Fin 0 → Fin S64x121.rank)
  reducesTo_S64x121_S_d0_1 : S64x121.ReducesTo [0, 1] S_
  bcast_S_S121 : S_.BroadcastsInDim S121 (![] : Fin 0 → Fin S121.rank)
  reducesTo_S121_S_d0 : S121.ReducesTo [0] S_

variable [Facts]

def fn_part1 {F : FTy → Type} [FloatOps F] (main_arg4 : FVec F S64x121 .f32) (main_arg5 : FVec F S121 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x121 .f32 := Host.absf main_arg4
  let main_cst_6 : FVec F S_ .f32 := constant S_ .f32 0x7F800000#32
  let main_v20 : FVec F S64x121 .f32 := broadcastInDim S64x121 ![] bcast_S_S64x121 main_cst_6
  let main_v21 : IVec S64x121 1 := cmpf .olt main_v19 main_v20
  let main_c_7 : IVec S_ 1 := constantI S_ 1 1#1
  let main_v22 : IVec S_ 1 := (fun x v => Host.reduce IntOp.andi x v reducesTo_S64x121_S_d0_1 h_S_) main_v21 main_c_7
  let main_v23 : IVec S_ 1 := andi main_v18 main_v22
  let main_v24 : FVec F S121 .f32 := Host.absf main_arg5
  let main_cst_8 : FVec F S_ .f32 := constant S_ .f32 0x7F800000#32
  let main_v25 : FVec F S121 .f32 := broadcastInDim S121 ![] bcast_S_S121 main_cst_8
  let main_v26 : IVec S121 1 := cmpf .olt main_v24 main_v25
  let main_c_9 : IVec S_ 1 := constantI S_ 1 1#1
  let main_v27 : IVec S_ 1 := (fun x v => Host.reduce IntOp.andi x v reducesTo_S121_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x121 .f32) (main_arg5 : FVec F S121 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x121 : Shape := ⟨2, ![64, 121]⟩
abbrev S121 : Shape := ⟨1, ![121]⟩
abbrev S1x64 : Shape := ⟨2, ![1, 64]⟩
abbrev S1x121 : Shape := ⟨2, ![1, 121]⟩
abbrev S10000x121 : Shape := ⟨2, ![10000, 121]⟩
abbrev S400x10000 : Shape := ⟨2, ![400, 10000]⟩
abbrev S400x121 : Shape := ⟨2, ![400, 121]⟩
abbrev S10000x64 : Shape := ⟨2, ![10000, 64]⟩
abbrev S400x64 : Shape := ⟨2, ![400, 64]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x121, .f32⟩
  | .hbm, ⟨5, _⟩ => ⟨S121, .f32⟩
  | .hbm, ⟨6, _⟩ => ⟨S1x64, .f32⟩
  | .hbm, ⟨7, _⟩ => ⟨S1x121, .f32⟩
  | .hbm, ⟨8, _⟩ => ⟨S10000x121, .f32⟩
  | .local _ .vmem, ⟨0, _⟩ => ⟨S10000x128, .f32⟩
  | .local _ .vmem, ⟨1, _⟩ => ⟨S128x64, .f32⟩
  | .local _ .vmem, ⟨2, _⟩ => ⟨S1x64, .f32⟩
  | .local _ .vmem, ⟨3, _⟩ => ⟨S64x121, .f32⟩
  | .local _ .vmem, ⟨4, _⟩ => ⟨S1x121, .f32⟩
  | .local _ .vmem, ⟨5, _⟩ => ⟨S400x10000, .f32⟩
  | .local _ .vmem, ⟨6, _⟩ => ⟨S400x10000, .f32⟩
  | .local _ .vmem, ⟨7, _⟩ => ⟨S400x121, .f32⟩
  | .local _ .vmem, ⟨8, _⟩ => ⟨S400x121, .f32⟩
  | .local _ .vmem, ⟨9, _⟩ => ⟨S10000x64, .f32⟩
  | .local _ .vmem, ⟨10, _⟩ => ⟨S10000x121, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x121 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x121 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S400x121 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S64_S1x64 : S64.ShapeCasts S1x64
  shapeCasts_S121_S1x121 : S121.ShapeCasts S1x121
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x121_S64x121_0_0 : ∀ a, (![0, 0] : Fin 2 → Nat) a + S64x121.size a ≤ S64x121.size a
  h_S64x121 : 0 < S64x121.numel
  h_S400x121 : 0 < S400x121.numel
  shapeCasts_S400x121_S400x121 : S400x121.ShapeCasts S400x121
  inb_S10000x121_S10000x121_0_0 : ∀ a, (![0, 0] : Fin 2 → Nat) a + S10000x121.size a ≤ S10000x121.size a
  h_S10000x121 : 0 < S10000x121.numel
  inb_S1x121_S1x121_0_0 : ∀ a, (![0, 0] : Fin 2 → Nat) a + S1x121.size a ≤ S1x121.size a
  h_S1x121 : 0 < S1x121.numel
  shapeCasts_S1x121_S1x121 : S1x121.ShapeCasts S1x121
  broadcasts_S1x121_S400x121 : S1x121.Broadcasts S400x121
  inb_S400x121_S400x121_0_0 : ∀ a, (![0, 0] : Fin 2 → Nat) a + S400x121.size a ≤ S400x121.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x121_S400x121_1_0_0_1_n_n_wf : DotDims.WF S400x64 S64x121 S400x121 [1] [0] [0] [1] [] []
  dot_S400x10000_S10000x121_S400x121_1_0_0_1_n_n_wf : DotDims.WF S400x10000 S10000x121 S400x121 [1] [0] [0] [1] [] []
  hrank0 : 0 < grid0.rank
  k0_off1_inb : ∀ i : grid0.Coords, ∀ (k0_h2 : k0_cond2 i = 1#1), ∀ a, (k0_off1 i) a + S400x121.size a ≤ S10000x121.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x121.size a ≤ S64x121.size a
  hwx0_3 : ∀ i : grid0.Coords, EltTy.bits .f32 = 32 ∨ (Rect.block (s := S64x121) S64x121.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x121.size a ≤ S1x121.size a
  hwx0_4 : ∀ i : grid0.Coords, EltTy.bits .f32 = 32 ∨ (Rect.block (s := S1x121) S1x121.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .f32 = 32 ∨ (Rect.block (s := S10000x10000) S400x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x121.size a ≤ S10000x121.size a
  hwx0_6 : ∀ i : grid0.Coords, EltTy.bits .f32 = 32 ∨ (Rect.block (s := S10000x121) S400x121.size (cc0_transform_6 i) (hinb0_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x121_S400x121_1_0_0_1_n_n : DotDims S400x64 S64x121 S400x121 where
  lhsContracting := [1]
  rhsContracting := [0]
  lhsNonContracting := [0]
  rhsNonContracting := [1]
  lhsBatch := []
  rhsBatch := []
  wf := dot_S400x64_S64x121_S400x121_1_0_0_1_n_n_wf
def dot_S400x10000_S10000x121_S400x121_1_0_0_1_n_n : DotDims S400x10000 S10000x121 S400x121 where
  lhsContracting := [1]
  rhsContracting := [0]
  lhsNonContracting := [0]
  rhsNonContracting := [1]
  lhsBatch := []
  rhsBatch := []
  wf := dot_S400x10000_S10000x121_S400x121_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x121.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x121.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S400x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x121.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x121 : Shape := ⟨2, ![64, 121]⟩
abbrev S121 : Shape := ⟨1, ![121]⟩
abbrev S10000x64 : Shape := ⟨2, ![10000, 64]⟩
abbrev S1x64 : Shape := ⟨2, ![1, 64]⟩
abbrev S_ : Shape := ⟨0, ![]⟩
abbrev S10000x121 : Shape := ⟨2, ![10000, 121]⟩
abbrev S1x121 : Shape := ⟨2, ![1, 121]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x121, .f32⟩
  | .hbm, ⟨5, _⟩ => ⟨S121, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x121, .f32⟩
  | .hbm, ⟨15, _⟩ => ⟨S10000x121, .f32⟩
  | .hbm, ⟨16, _⟩ => ⟨S1x121, .f32⟩
  | .hbm, ⟨17, _⟩ => ⟨S10000x121, .f32⟩
  | .hbm, ⟨18, _⟩ => ⟨S10000x121, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S121_S1x121_1 : S121.BroadcastsInDim S1x121 (![1] : Fin 1 → Fin S1x121.rank)
  bcast_S1x121_S10000x121_0_1 : S1x121.BroadcastsInDim S10000x121 (![0, 1] : Fin 2 → Fin S10000x121.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x121_S10000x121_1_0_0_1_n_n_wf : DotDims.WF S10000x64 S64x121 S10000x121 [1] [0] [0] [1] [] []
  dot_S10000x10000_S10000x121_S10000x121_1_0_0_1_n_n_wf : DotDims.WF S10000x10000 S10000x121 S10000x121 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x121_S10000x121_1_0_0_1_n_n : DotDims S10000x64 S64x121 S10000x121 where
  lhsContracting := [1]
  rhsContracting := [0]
  lhsNonContracting := [0]
  rhsNonContracting := [1]
  lhsBatch := []
  rhsBatch := []
  wf := dot_S10000x64_S64x121_S10000x121_1_0_0_1_n_n_wf
def dot_S10000x10000_S10000x121_S10000x121_1_0_0_1_n_n : DotDims S10000x10000 S10000x121 S10000x121 where
  lhsContracting := [1]
  rhsContracting := [0]
  lhsNonContracting := [0]
  rhsNonContracting := [1]
  lhsBatch := []
  rhsBatch := []
  wf := dot_S10000x10000_S10000x121_S10000x121_1_0_0_1_n_n_wf

class Facts : Prop extends Facts₀ where

variable [Facts]
-- ==== Proof.BitsSpec.lean ====
/-
  The two-layer graph convolution as ONE function of its arrays, generic in the float instance.

  The kernel walks the adjacency matrix twice, 400 rows at a time (25 row blocks).  On the first walk it
  fills a hidden array row block by row block: rows [400 j, 400 j + 400) of
      H = relu (A · (X · W1) + b1) · W2
  come from row block j of A alone.  On the second walk it emits the result the same way: rows
  [400 j, 400 j + 400) of  A · H + b2  come from row block j of A and the WHOLE of H.
  So each row of either array is read here through the row block it lies in (row / 400) at its place
  inside that block (row % 400), over the three stored values of the kernel body
  (X · W1; the hidden rows of a block; the result rows of a block).
-/
import proofs.«105198_g50946902065447_cont_8to1c4_757_4_alg».proof.Proof.Gen.Kernel.Skeleton
import Idealize.ShloMosaic.Lib.ValueIdx

noncomputable section

namespace Cert.Kernel.Gcn

open Cert.Kernel Cert.Kernel.Gen Idealize.ShloMosaic Idealize.ShloMosaic.ValueIdx

variable {F : FTy → Type} [FloatOps F]

/-- Row block `j` of the adjacency matrix: its rows `[400 j, 400 j + 400)`, every column. -/
def adjRows (adj : Vec F S10000x10000 .f32) (j : Fin 25) : Vec F S400x10000 .f32 :=
  fun y => adj (ix2 (⟨400 * j.val + (y 0).val, by have := idx2_lt0 y; have := j.isLt; omega⟩ : Fin 10000) (y 1))

/-- The row block a row of a 10000-row, 121-column array lies in. -/
def rowBlock (y : S10000x121.Idx) : Fin 25 := ⟨(y 0).val / 400, by have := idx2_lt0 y; omega⟩

/-- Its place inside that block: row `row % 400`, the same column. -/
def inBlock (y : S10000x121.Idx) : S400x121.Idx :=
  ix2 (⟨(y 0).val % 400, Nat.mod_lt _ (by norm_num)⟩ : Fin 400) (y 1)

/-- A row is its block's first row plus its place in the block. -/
theorem row_eq (y : S10000x121.Idx) : (y 0).val = 400 * (rowBlock y).val + ((inBlock y) 0).val := by
  show (y 0).val = 400 * ((y 0).val / 400) + (y 0).val % 400
  omega

/-- The hidden array `relu (A · S1 + b1) · W2`, each row through its row block of `A`. -/
def hidden (blk : Fin 25 → Vec F S400x10000 .f32) (s1 : Vec F S10000x64 .f32) (b1r : Vec F S1x64 .f32)
    (w2 : Vec F S64x121 .f32) : Vec F S10000x121 .f32 :=
  fun y => k0_pay2 (blk (rowBlock y)) s1 b1r w2 (inBlock y)

/-- The result `A · H + b2`, each row through its row block of `A`. -/
def logits (blk : Fin 25 → Vec F S400x10000 .f32) (h : Vec F S10000x121 .f32) (b2r : Vec F S1x121 .f32) :
    Vec F S10000x121 .f32 :=
  fun y => k0_pay3 (blk (rowBlock y)) h b2r (inBlock y)

/-- The whole network: `A · (relu (A · (X · W1) + b1) · W2) + b2` with the biases as one-row arrays. -/
def gcn (x : Vec F S10000x128 .f32) (adj : Vec F S10000x10000 .f32) (w1 : Vec F S128x64 .f32)
    (b1r : Vec F S1x64 .f32) (w2 : Vec F S64x121 .f32) (b2r : Vec F S1x121 .f32) : Vec F S10000x121 .f32 :=
  logits (adjRows adj) (hidden (adjRows adj) (k0_pay1 x w1) b1r w2) b2r

end Cert.Kernel.Gcn

end
-- ==== Proof.BitsBody.lean ====
/-
  The kernel body run once, in each of the three situations a grid point can be in.

  The body has three guarded parts.  At the very first point it computes S1 = X · W1 into the first scratch
  array.  At every point of the first walk over the adjacency matrix (the first included) it computes, from
  the staged row block of A, the 400 hidden rows  relu (A_blk · S1 + b1) · W2  and puts them into rows
  [400 j, 400 j + 400) of the second scratch array, leaving its other rows alone.  At every point of the
  second walk it computes  A_blk · H + b2  from the staged row block and the WHOLE second scratch array and
  puts it into the output's staging block.  Each statement below says, for one situation, what every buffer
  holds afterwards as a pure function of what it held before; nothing else is touched.
-/
import proofs.«105198_g50946902065447_cont_8to1c4_757_4_alg».proof.Proof.Gen.Kernel.Frame
import proofs.«105198_g50946902065447_cont_8to1c4_757_4_alg».proof.Proof.Gen.Kernel.Skeleton
import proofs.«105198_g50946902065447_cont_8to1c4_757_4_alg».proof.Proof.BitsSpec
import Idealize.ShloMosaic.Lib.WritesUnit
import Idealize.ShloMosaic.Lib.Pipeline.Value
set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The first point of the grid: both coordinates zero (the condition of the body's first branch). -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The first walk over the adjacency matrix (the condition of the body's second branch). -/
abbrev inFirstWalk (i : grid0.Coords) : Prop := k0_cond2 i = 1#1
/-- The second walk (the condition of the body's third branch). -/
abbrev inSecondWalk (i : grid0.Coords) : Prop := k0_cond3 i = 1#1

/-- `d` with its rows `[o, o + 400)` replaced by the 400 rows of `w`. -/
def putRows (o : ℕ) (d : Vec F S10000x121 .f32) (w : Vec F S400x121 .f32) : Vec F S10000x121 .f32 :=
  fun y => if h : o ≤ (y 0).val ∧ (y 0).val < o + 400 then w (ix2 (⟨(y 0).val - o, by omega⟩ : Fin 400) (y 1)) else d y

theorem putRows_of_mem (o : ℕ) (d : Vec F S10000x121 .f32) (w : Vec F S400x121 .f32) (y : S10000x121.Idx)
    (h : o ≤ (y 0).val ∧ (y 0).val < o + 400) : putRows o d w y = w (ix2 (⟨(y 0).val - o, by omega⟩ : Fin 400) (y 1)) := by
  unfold putRows; rw [dif_pos h]

theorem putRows_of_not_mem (o : ℕ) (d : Vec F S10000x121 .f32) (w : Vec F S400x121 .f32) (y : S10000x121.Idx)
    (h : ¬(o ≤ (y 0).val ∧ (y 0).val < o + 400)) : putRows o d w y = d y := by
  unfold putRows; rw [dif_neg h]

/-- ONE STEP OF THE FIRST WALK, as arithmetic on rows.  If the rows below `400 j` of `d` are already the hidden
    array's, then after rows `[400 j, 400 j + 400)` are replaced by the hidden rows computed from row block `j`, the
    rows below `400 (j + 1)` are: a row below `400 j` is untouched, and a row `r` in the new band lies in row block
    `r / 400 = j` at place `r % 400 = r - 400 j`. -/
theorem hidden_rows_step (blk : Fin 25 → Vec F S400x10000 .f32) (s1 : Vec F S10000x64 .f32) (b1r : Vec F S1x64 .f32)
    (w2 : Vec F S64x121 .f32) (d : Vec F S10000x121 .f32) (j : ℕ) (hj : j < 25)
    (hd : ∀ y : S10000x121.Idx, (y 0).val < 400 * j → d y = hidden blk s1 b1r w2 y) :
    ∀ y : S10000x121.Idx, (y 0).val < 400 * (j + 1) →
      putRows (400 * j) d (k0_pay2 (blk ⟨j, hj⟩) s1 b1r w2) y = hidden blk s1 b1r w2 y := by
  intro y hy
  by_cases h : 400 * j ≤ (y 0).val
  · have hm : 400 * j ≤ (y 0).val ∧ (y 0).val < 400 * j + 400 := ⟨h, by omega⟩
    rw [putRows_of_mem _ _ _ _ hm]
    unfold hidden
    have hb : rowBlock y = ⟨j, hj⟩ := Fin.ext (by show (y 0).val / 400 = j; omega)
    have hi : inBlock y = ix2 (⟨(y 0).val - 400 * j, by omega⟩ : Fin 400) (y 1) := by
      unfold inBlock
      congr 1
      exact Fin.ext (by show (y 0).val % 400 = (y 0).val - 400 * j; omega)
    rw [hb, hi]
    rfl
  · rw [putRows_of_not_mem _ _ _ _ (fun hm => h hm.1)]
    exact hd y (by omega)

/-- Two spellings of "offset zero on both axes". -/
theorem zero_off : (![0, 0] : Fin 2 → ℕ) = fun _ => 0 := by
  funext a; match a with | ⟨0, _⟩ => rfl | ⟨1, _⟩ => rfl

/-- A buffer read back after ONE store through its whole shape at offset zero holds the stored value,
    whatever it held before. -/
theorem read_one_whole_store {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h]

/-- A whole buffer read back after ONE store of 400 rows at row offset `400 · j`: the old contents with those rows replaced. -/
theorem read_store_rows (arg10 : Memref sig .tc .vmem S10000x121 .f32) (harg10 : arg10.IsWhole) (i : grid0.Coords)
    (hi : inFirstWalk i) (d : Vec F S10000x121 .f32) (w : Vec F S400x121 .f32) :
    View.read (Elt F) arg10.view (arg10.view.writes (Elt F) (harg10.unread d)
        [⟨Rect.unit (s := S10000x121) (k0_off1 i) S400x121.size (k0_off1_inb i hi), w⟩])
      = putRows (400 * (i 1).val) d w := by
  funext y
  rw [View.read_writes_cons_rows (o := 400 * (i 1).val) (W := 400) arg10.view (harg10.unread d) (k0_off1_inb i hi) w [] y (k0_off1_eq i) rfl rfl]
  unfold putRows
  split
  · next h =>
    congr 1
    funext a
    match a with
    | ⟨0, _⟩ => exact Fin.ext (by rw [Rect.unitLocal_val]; rfl)
    | ⟨1, _⟩ => exact Fin.ext (by rw [Rect.unitLocal_val]; show (y 1).val - 0 = (y 1).val; omega)
  · rw [View.writes_nil, harg10.read_unread]

set_option maxHeartbeats 1000000 in
/-- THE FIRST POINT: S1 is computed and stored whole, then the first 400 hidden rows. -/
theorem start_run (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x121 .f32) (harg5 : arg5.IsWhole) (arg6 : Memref sig .tc .vmem S1x121 .f32) (harg6 : arg6.IsWhole) (arg7 : Memref sig .tc .vmem S400x10000 .f32) (harg7 : arg7.IsWhole) (arg8 : Memref sig .tc .vmem S400x121 .f32) (harg8 : arg8.IsWhole) (arg9 : Memref sig .tc .vmem S10000x64 .f32) (harg9 : arg9.IsWhole) (arg10 : Memref sig .tc .vmem S10000x121 .f32) (harg10 : arg10.IsWhole) (hc0 : atStart i) (hc1 : inFirstWalk i) (hc2 : ¬inSecondWalk i)
    (x0 : Vec F S10000x128 .f32) (x1 : Vec F S128x64 .f32) (x2 : Vec F S1x64 .f32) (x3 : Vec F S64x121 .f32) (x4 : Vec F S1x121 .f32) (x5 : Vec F S400x10000 .f32) (x6 : Vec F S400x121 .f32) (xs1 : Vec F S10000x121 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x1)
            ∗ owns (c : Thread nD τ) arg10 fullShare (putRows (400 * (i 1).val) xs1 (k0_pay2 x5 (k0_pay1 x0 x1) x2 x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [HS0]
    · iexists _; isplitr; swap; · iexact HS0
      ipureintro
      sl_unfold_words
      rw [read_one_whole_store _ _ zero_off]
      simp only [View.readAt_eq_ld, harg2.read_unread, harg3.read_unread, View.ld_unit_zero (S := S10000x128) zero_off, View.ld_unit_zero (S := S128x64) zero_off]
    iexists _; isplitr; swap; · iexact HS1
    ipureintro
    sl_unfold_words
    simp only [View.readAt_eq_ld, harg7.read_unread, harg4.read_unread, harg5.read_unread, harg2.read_unread, harg3.read_unread,
      View.ld_unit_zero (S := S400x10000) zero_off, View.ld_unit_zero (S := S1x64) zero_off, View.ld_unit_zero (S := S64x121) zero_off,
      View.ld_unit_zero (S := S10000x128) zero_off, View.ld_unit_zero (S := S128x64) zero_off,
      View.readCov_unit_zero (S := S10000x64) _ zero_off]
    exact read_store_rows arg10 harg10 i hc1 xs1 _

set_option maxHeartbeats 1000000 in
/-- A LATER POINT OF THE FIRST WALK: S1 is read from the first scratch array, which is left as it was, and the
    point's 400 hidden rows are stored. -/
theorem firstWalk_run (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x121 .f32) (harg5 : arg5.IsWhole) (arg6 : Memref sig .tc .vmem S1x121 .f32) (harg6 : arg6.IsWhole) (arg7 : Memref sig .tc .vmem S400x10000 .f32) (harg7 : arg7.IsWhole) (arg8 : Memref sig .tc .vmem S400x121 .f32) (harg8 : arg8.IsWhole) (arg9 : Memref sig .tc .vmem S10000x64 .f32) (harg9 : arg9.IsWhole) (arg10 : Memref sig .tc .vmem S10000x121 .f32) (harg10 : arg10.IsWhole) (hc0 : ¬atStart i) (hc1 : inFirstWalk i) (hc2 : ¬inSecondWalk i)
    (x0 : Vec F S10000x128 .f32) (x1 : Vec F S128x64 .f32) (x2 : Vec F S1x64 .f32) (x3 : Vec F S64x121 .f32) (x4 : Vec F S1x121 .f32) (x5 : Vec F S400x10000 .f32) (x6 : Vec F S400x121 .f32) (xs0 : Vec F S10000x64 .f32) (xs1 : Vec F S10000x121 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0
            ∗ owns (c : Thread nD τ) arg10 fullShare (putRows (400 * (i 1).val) xs1 (k0_pay2 x5 xs0 x2 x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [HS0]
    · iexists _; isplitr; · ipureintro; exact harg9.read_unread _
      iexact HS0
    iexists _; isplitr; swap; · iexact HS1
    ipureintro
    simp only [View.readAt_eq_ld, harg7.read_unread, harg4.read_unread, harg5.read_unread, harg9.read_unread,
      View.ld_unit_zero (S := S400x10000) zero_off, View.ld_unit_zero (S := S1x64) zero_off, View.ld_unit_zero (S := S64x121) zero_off,
      View.ld_unit_zero (S := S10000x64) zero_off]
    exact read_store_rows arg10 harg10 i hc1 xs1 _

set_option maxHeartbeats 1000000 in
/-- A POINT OF THE SECOND WALK: the result rows of the staged row block, from the whole hidden array, go into
    the output's staging block; both scratch arrays are left as they were. -/
theorem secondWalk_run (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x121 .f32) (harg5 : arg5.IsWhole) (arg6 : Memref sig .tc .vmem S1x121 .f32) (harg6 : arg6.IsWhole) (arg7 : Memref sig .tc .vmem S400x10000 .f32) (harg7 : arg7.IsWhole) (arg8 : Memref sig .tc .vmem S400x121 .f32) (harg8 : arg8.IsWhole) (arg9 : Memref sig .tc .vmem S10000x64 .f32) (harg9 : arg9.IsWhole) (arg10 : Memref sig .tc .vmem S10000x121 .f32) (harg10 : arg10.IsWhole) (hc0 : ¬atStart i) (hc1 : ¬inFirstWalk i) (hc2 : inSecondWalk i)
    (x0 : Vec F S10000x128 .f32) (x1 : Vec F S128x64 .f32) (x2 : Vec F S1x64 .f32) (x3 : Vec F S64x121 .f32) (x4 : Vec F S1x121 .f32) (x5 : Vec F S400x10000 .f32) (xs0 : Vec F S10000x64 .f32) (xs1 : Vec F S10000x121 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x5 xs1 x4) ∗ owns (c : Thread nD τ) arg9 fullShare xs0 ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      rw [read_one_whole_store _ _ zero_off]
      simp only [View.readAt_eq_ld, harg7.read_unread, harg10.read_unread, harg6.read_unread,
        View.ld_unit_zero (S := S400x10000) zero_off, View.ld_unit_zero (S := S10000x121) zero_off, View.ld_unit_zero (S := S1x121) zero_off]
    isplitl [HS0]
    · iexists _; isplitr; · ipureintro; exact harg9.read_unread _
      iexact HS0
    iexists _; isplitr; · ipureintro; exact harg10.read_unread _
    iexact HS1

end Cert.Kernel.Gcn

end
-- ==== Proof.BitsRun.lean ====
/-
  The whole run of the pipelined kernel, and what its result array holds.

  Fifty grid points: points 0..24 are the first walk over the adjacency matrix A (row block j = point), points
  25..49 the second (row block j = point - 25).  Between points the two scratch arrays carry the computation:
  from the first point on the first holds S1 = X · W1, and before point n the rows below 400 · min n 25 of the
  second hold the hidden array H = relu (A · S1 + b1) · W2.  So when the second walk starts H is complete, and
  each of its points leaves rows [400 j, 400 j + 400) of  A · H + b2  in the output's staging block, which is
  then written back.  The output's block index stays 0 all through the first walk, where the body never
  touches the staging block and nothing is written back; the 25 blocks written back in the second walk tile
  the result array, so it ends holding  A · H + b2  everywhere.
-/
import proofs.«105198_g50946902065447_cont_8to1c4_757_4_alg».proof.Proof.BitsBody
import Idealize.ShloMosaic.Lib.Pipeline.Value
import Idealize.ShloMosaic.Lib.Pipeline.Frame

set_option maxRecDepth 16384

noncomputable section

namespace Cert.Kernel.Gcn

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid, decided point by point -/

theorem atStart_iff : ∀ t : Fin cfg0.N, atStart (grid0.coords t) ↔ t.val = 0 :=
  (by decide +kernel : ∀ t : Fin grid0.N, atStart (grid0.coords t) ↔ t.val = 0)
theorem inFirstWalk_iff : ∀ t : Fin cfg0.N, inFirstWalk (grid0.coords t) ↔ t.val < 25 :=
  (by decide +kernel : ∀ t : Fin grid0.N, inFirstWalk (grid0.coords t) ↔ t.val < 25)
theorem inSecondWalk_iff : ∀ t : Fin cfg0.N, inSecondWalk (grid0.coords t) ↔ 25 ≤ t.val :=
  (by decide +kernel : ∀ t : Fin grid0.N, inSecondWalk (grid0.coords t) ↔ 25 ≤ t.val)
/-- The row block a point works on: the point's second coordinate. -/
theorem block_of_point : ∀ t : Fin cfg0.N, ((grid0.coords t) 1).val = t.val % 25 :=
  (by decide +kernel : ∀ t : Fin grid0.N, ((grid0.coords t) 1).val = t.val % 25)

/-- No input window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly through the first walk, and written back exactly at the points of the second. -/
theorem idle6 : ∀ t : Fin cfg0.N, cfg0.idle 6 (grid0.coords t) = decide (t.val < 25) :=
  (by decide +kernel : ∀ t : Fin grid0.N, cfg0.idle 6 (grid0.coords t) = decide (t.val < 25))
theorem flush6 : ∀ t : Fin cfg0.N, (cfg0.win 6).flush t = decide (25 ≤ t.val) :=
  (by decide +kernel : ∀ t : Fin grid0.N, win0_6.flush t = decide (25 ≤ t.val))

/-- The block indices of the windows: the five small operands sit at block (0, 0) throughout; the adjacency window is
    at row block `point % 25`; the output window at row block 0 through the first walk, then `point - 25`. -/
theorem index_small : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) :=
  (by decide +kernel : ∀ t : Fin grid0.N, _)
theorem index_adj : ∀ t : Fin cfg0.N, win0_5.index t (0 : Fin 2) = t.val % 25 ∧ win0_5.index t (1 : Fin 2) = 0 :=
  (by decide +kernel : ∀ t : Fin grid0.N, _)
theorem index_out : ∀ t : Fin cfg0.N, win0_6.index t (0 : Fin 2) = t.val - 25 ∧ win0_6.index t (1 : Fin 2) = 0 :=
  (by decide +kernel : ∀ t : Fin grid0.N, _)

/-! ## The arrays as the region finds them, and the windows' blocks read off them -/

abbrev X (c : Dev nD) : Vec F S10000x128 .f32 := V m c main_arg0
abbrev A (c : Dev nD) : Vec F S10000x10000 .f32 := V m c main_arg1
abbrev W1 (c : Dev nD) : Vec F S128x64 .f32 := V m c main_arg2
abbrev B1 (c : Dev nD) : Vec F S1x64 .f32 := V m c main_call0_v0
abbrev W2 (c : Dev nD) : Vec F S64x121 .f32 := V m c main_arg4
abbrev B2 (c : Dev nD) : Vec F S1x121 .f32 := V m c main_call0_v1

/-- `X · W1`, the hidden array and the result, of the arrays as found. -/
def S1 (c : Dev nD) : Vec F S10000x64 .f32 := k0_pay1 (X m c) (W1 m c)
def H (c : Dev nD) : Vec F S10000x121 .f32 := hidden (adjRows (A m c)) (S1 m c) (B1 m c) (W2 m c)
def O (c : Dev nD) : Vec F S10000x121 .f32 := logits (adjRows (A m c)) (H m c) (B2 m c)

theorem O_eq (c : Dev nD) : O m c = gcn (X m c) (A m c) (W1 m c) (B1 m c) (W2 m c) (B2 m c) := rfl

/-- Each window's block at a point with its literal type. -/
abbrev xB (c : Dev nD) (t : Fin cfg0.N) : Vec F S10000x128 .f32 := iblk m c 0 t
abbrev w1B (c : Dev nD) (t : Fin cfg0.N) : Vec F S128x64 .f32 := iblk m c 1 t
abbrev b1B (c : Dev nD) (t : Fin cfg0.N) : Vec F S1x64 .f32 := iblk m c 2 t
abbrev w2B (c : Dev nD) (t : Fin cfg0.N) : Vec F S64x121 .f32 := iblk m c 3 t
abbrev b2B (c : Dev nD) (t : Fin cfg0.N) : Vec F S1x121 .f32 := iblk m c 4 t
abbrev adjB (c : Dev nD) (t : Fin cfg0.N) : Vec F S400x10000 .f32 := iblk m c 5 t

/-- A window at block (0, 0) whose block is the whole array reads the whole array. -/
theorem xB_eq (c : Dev nD) (t : Fin cfg0.N) : xB m c t = X m c := by
  funext y
  show V m c main_arg0 (((cfg0.win 0).blk t).view.emb y) = V m c main_arg0 y
  congr 1; funext a; apply Fin.ext
  show win0_0.index t a * S10000x128.size a + 1 * (y a).val = (y a).val
  rw [(index_small t).1 a]; omega
theorem w1B_eq (c : Dev nD) (t : Fin cfg0.N) : w1B m c t = W1 m c := by
  funext y
  show V m c main_arg2 (((cfg0.win 1).blk t).view.emb y) = V m c main_arg2 y
  congr 1; funext a; apply Fin.ext
  show win0_1.index t a * S128x64.size a + 1 * (y a).val = (y a).val
  rw [(index_small t).2.1 a]; omega
theorem b1B_eq (c : Dev nD) (t : Fin cfg0.N) : b1B m c t = B1 m c := by
  funext y
  show V m c main_call0_v0 (((cfg0.win 2).blk t).view.emb y) = V m c main_call0_v0 y
  congr 1; funext a; apply Fin.ext
  show win0_2.index t a * S1x64.size a + 1 * (y a).val = (y a).val
  rw [(index_small t).2.2.1 a]; omega
theorem w2B_eq (c : Dev nD) (t : Fin cfg0.N) : w2B m c t = W2 m c := by
  funext y
  show V m c main_arg4 (((cfg0.win 3).blk t).view.emb y) = V m c main_arg4 y
  congr 1; funext a; apply Fin.ext
  show win0_3.index t a * S64x121.size a + 1 * (y a).val = (y a).val
  rw [(index_small t).2.2.2.1 a]; omega
theorem b2B_eq (c : Dev nD) (t : Fin cfg0.N) : b2B m c t = B2 m c := by
  funext y
  show V m c main_call0_v1 (((cfg0.win 4).blk t).view.emb y) = V m c main_call0_v1 y
  congr 1; funext a; apply Fin.ext
  show win0_4.index t a * S1x121.size a + 1 * (y a).val = (y a).val
  rw [(index_small t).2.2.2.2 a]; omega
/-- The adjacency window's block at a point is row block `point % 25` of `A`. -/
theorem adjB_eq (c : Dev nD) (t : Fin cfg0.N) : adjB m c t = adjRows (A m c) ⟨t.val % 25, Nat.mod_lt _ (by norm_num)⟩ := by
  funext y
  show V m c main_arg1 (((cfg0.win 5).blk t).view.emb y) = V m c main_arg1 _
  congr 1; funext a; apply Fin.ext
  match a with
  | ⟨0, _⟩ =>
    show win0_5.index t (0 : Fin 2) * 400 + 1 * (y 0).val = 400 * (t.val % 25) + (y 0).val
    rw [(index_adj t).1]; omega
  | ⟨1, _⟩ =>
    show win0_5.index t (1 : Fin 2) * 10000 + 1 * (y 1).val = (y 1).val
    rw [(index_adj t).2]; omega

/-! ## What the scratch arrays hold between points -/

abbrev scM0 : Memref sig .tc .vmem S10000x64 .f32 := Memref.whole cc0_scratch0
abbrev scM1 : Memref sig .tc .vmem S10000x121 .f32 := Memref.whole cc0_scratch1

/-- What the launch hands the body besides the windows: the two scratch arrays at anything, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before point `n`: nothing known at the start; afterwards `S1` in the first scratch array and the hidden rows
    below `400 · min n 25` in the second. -/
def Inv (c : Dev nD) : (n : ℕ) → n ≤ cfg0.N → sProp 𝕄
  | 0, _ => Pipeline.ΦA spec0 c
  | n + 1, _ => iprop(iprop(owns (c : Thread nD τ) scM0 fullShare (S1 m c)
      ∗ (∃ d : Vec F S10000x121 .f32, ⌜∀ y : S10000x121.Idx, (y 0).val < 400 * min (n + 1) 25 → d y = H m c y⌝ ∗ owns (c : Thread nD τ) scM1 fullShare d))
      ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) scM0 fullShare (S1 m c)
      ∗ (∃ d : Vec F S10000x121 .f32, ⌜∀ y : S10000x121.Idx, (y 0).val < 400 * min (n + 1) 25 → d y = H m c y⌝ ∗ owns (c : Thread nD τ) scM1 fullShare d))
      ∗ (∃ r, prngReg c r)) := rfl
theorem Inv_pos (c : Dev nD) (n : ℕ) (h : n ≤ cfg0.N) (hz : n ≠ 0) :
    Inv m c n h = iprop(iprop(owns (c : Thread nD τ) scM0 fullShare (S1 m c)
      ∗ (∃ d : Vec F S10000x121 .f32, ⌜∀ y : S10000x121.Idx, (y 0).val < 400 * min n 25 → d y = H m c y⌝ ∗ owns (c : Thread nD τ) scM1 fullShare d))
      ∗ (∃ r, prngReg c r)) := by
  cases n with
  | zero => exact absurd rfl hz
  | succ n => rfl

/-! ## The pipeline's proof data -/

/-- The arrays as found; after the body each input's staging block is its block, the output's the result rows of the
    point's row block (read only at the points of the second walk); the scratch invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (adjB m c t) (H m c) (b2B m c t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay3 (adjB m c t) (H m c) (b2B m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation at a generic point -/

abbrev ms0 (t : Fin cfg0.N) : Memref sig .tc .vmem S10000x128 .f32 := win0_0.stage (cfg0.slots t 0)
abbrev ms1 (t : Fin cfg0.N) : Memref sig .tc .vmem S128x64 .f32 := win0_1.stage (cfg0.slots t 1)
abbrev ms2 (t : Fin cfg0.N) : Memref sig .tc .vmem S1x64 .f32 := win0_2.stage (cfg0.slots t 2)
abbrev ms3 (t : Fin cfg0.N) : Memref sig .tc .vmem S64x121 .f32 := win0_3.stage (cfg0.slots t 3)
abbrev ms4 (t : Fin cfg0.N) : Memref sig .tc .vmem S1x121 .f32 := win0_4.stage (cfg0.slots t 4)
abbrev ms5 (t : Fin cfg0.N) : Memref sig .tc .vmem S400x10000 .f32 := win0_5.stage (cfg0.slots t 5)
abbrev ms6 (t : Fin cfg0.N) : Memref sig .tc .vmem S400x121 .f32 := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point.  The inputs' staging blocks hold their blocks.  At the first point the scratch arrays hold
    anything and the body leaves `S1` and the first 400 hidden rows; at a later point of the first walk it finds `S1`
    and the rows below `400 t`, and adds the next 400; through the first walk the output's staging block is handed
    back as found.  At a point of the second walk the hidden array is complete (every row is below `400 · 25`), and
    the body leaves the point's result rows in the output's staging block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Inv m c (t.val + 1) t.isLt from rfl, Inv_succ]
  have hN : t.val < 50 := lt_of_lt_of_eq t.isLt (show cfg0.N = 50 from N_0)
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  by_cases h1 : t.val < 25
  · have hblk : ((grid0.coords t) 1).val = t.val := by rw [block_of_point t]; omega
    rw [(dats m 0 c).leavesExact_idle 6 t (by rw [idle6 t]; exact decide_eq_true h1) (by rw [flush6 t]; exact decide_eq_false (by omega))]
    by_cases hz : t.val = 0
    · rw [Inv_castSucc m c t, Inv_zero m c _ _ hz, PhiA_eq]
      iintro ⟨⟨⟨HS0, ⟨%d1, HS1⟩⟩, Hg⟩, Ho, ⟨%d0, H0⟩, ⟨%e1, H1⟩, ⟨%e2, H2⟩, ⟨%e3, H3⟩, ⟨%e4, H4⟩, ⟨%e5, H5⟩, ⟨%d6, H6⟩⟩
      iapply (start_run c (grid0.coords t) _ _ _ _ _ _ _ _ _ _ _ _ _ _ _ _ _ _ ((atStart_iff t).mpr hz) ((inFirstWalk_iff t).mpr h1) (fun h => absurd ((inSecondWalk_iff t).mp h) (by omega))
        (iblk m c 0 t) (iblk m c 1 t) (iblk m c 2 t) (iblk m c 3 t) (iblk m c 4 t) (iblk m c 5 t) ((dats m 0 c).before 6 t d6) d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · rw [show k0_pay1 (iblk m c 0 t) (iblk m c 1 t) = S1 m c from by
              unfold S1; rw [← xB_eq m c t, ← w1B_eq m c t]]
            iexact HS0
          iexists _; isplitr; swap; · iexact HS1
          ipureintro
          intro y hy
          have hstep := hidden_rows_step (adjRows (A m c)) (S1 m c) (B1 m c) (W2 m c) d1 t.val h1
            (fun y hy => absurd hy (by omega)) y (by have : min (t.val + 1) 25 = t.val + 1 := by omega
                                                     rw [this] at hy; exact hy)
          have hj : (⟨t.val % 25, Nat.mod_lt _ (by norm_num)⟩ : Fin 25) = ⟨t.val, h1⟩ := Fin.ext (by show t.val % 25 = t.val; omega)
          have hpay : k0_pay2 (iblk m c 5 t) (k0_pay1 (iblk m c 0 t) (iblk m c 1 t)) (iblk m c 2 t) (iblk m c 3 t)
              = k0_pay2 (adjRows (A m c) ⟨t.val, h1⟩) (S1 m c) (B1 m c) (W2 m c) := by
            show k0_pay2 (adjB m c t) (k0_pay1 (xB m c t) (w1B m c t)) (b1B m c t) (w2B m c t) = _
            rw [adjB_eq, xB_eq, w1B_eq, b1B_eq, w2B_eq, hj]; rfl
          rw [hblk, hpay]
          exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Inv_castSucc m c t, Inv_pos m c _ _ hz]
      iintro ⟨⟨⟨HS0, ⟨%d1, %hd1, HS1⟩⟩, Hg⟩, Ho, ⟨%d0, H0⟩, ⟨%e1, H1⟩, ⟨%e2, H2⟩, ⟨%e3, H3⟩, ⟨%e4, H4⟩, ⟨%e5, H5⟩, ⟨%d6, H6⟩⟩
      iapply (firstWalk_run c (grid0.coords t) _ _ _ _ _ _ _ _ _ _ _ _ _ _ _ _ _ _ (fun h => hz ((atStart_iff t).mp h)) ((inFirstWalk_iff t).mpr h1) (fun h => absurd ((inSecondWalk_iff t).mp h) (by omega))
        (iblk m c 0 t) (iblk m c 1 t) (iblk m c 2 t) (iblk m c 3 t) (iblk m c 4 t) (iblk m c 5 t) ((dats m 0 c).before 6 t d6) (S1 m c) d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          intro y hy
          have hstep := hidden_rows_step (adjRows (A m c)) (S1 m c) (B1 m c) (W2 m c) d1 t.val h1
            (fun y hy => hd1 y (by have : min t.val 25 = t.val := by omega
                                   rw [this]; exact hy)) y (by have : min (t.val + 1) 25 = t.val + 1 := by omega
                                                               rw [this] at hy; exact hy)
          have hj : (⟨t.val % 25, Nat.mod_lt _ (by norm_num)⟩ : Fin 25) = ⟨t.val, h1⟩ := Fin.ext (by show t.val % 25 = t.val; omega)
          have hpay : k0_pay2 (iblk m c 5 t) (S1 m c) (iblk m c 2 t) (iblk m c 3 t)
              = k0_pay2 (adjRows (A m c) ⟨t.val, h1⟩) (S1 m c) (B1 m c) (W2 m c) := by
            show k0_pay2 (adjB m c t) (S1 m c) (b1B m c t) (w2B m c t) = _
            rw [adjB_eq, b1B_eq, w2B_eq, hj]
          rw [hblk, hpay]
          exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    rw [show (dats m 0 c).leavesExact 6 t = owns (c : Thread nD τ) (ms6 t) fullShare ((dats m 0 c).after 6 t) from by
      unfold Dat.leavesExact; rw [idle6 t, decide_eq_false h1], after_6]
    rw [Inv_castSucc m c t, Inv_pos m c _ _ hz]
    iintro ⟨⟨⟨HS0, ⟨%d1, %hd1, HS1⟩⟩, Hg⟩, Ho, ⟨%d0, H0⟩, ⟨%e1, H1⟩, ⟨%e2, H2⟩, ⟨%e3, H3⟩, ⟨%e4, H4⟩, ⟨%e5, H5⟩, ⟨%d6, H6⟩⟩
    obtain rfl : d1 = H m c := funext fun y => hd1 y (by
      have : min t.val 25 = 25 := by omega
      rw [this]; have := idx2_lt0 y; omega)
    iapply (secondWalk_run c (grid0.coords t) _ _ _ _ _ _ _ _ _ _ _ _ _ _ _ _ _ _ (fun h => hz ((atStart_iff t).mp h)) (fun h => h1 ((inFirstWalk_iff t).mp h)) ((inSecondWalk_iff t).mpr (by omega))
      (iblk m c 0 t) (iblk m c 1 t) (iblk m c 2 t) (iblk m c 3 t) (iblk m c 4 t) (iblk m c 5 t) (S1 m c) (H m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists _; isplitr; swap; · iexact HS1
        ipureintro
        intro y _; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After the last point the invariant gives the scratch arrays back at anything. -/
theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 50 := N_0; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline at what the library computes from the
    proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the six argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gcn

end
-- ==== Proof.Spec.lean ====
/-
  The two-layer graph convolution as ONE function of its arrays, generic in the float instance.

  The kernel walks the adjacency matrix twice, 400 rows at a time (25 row blocks).  On the first walk it
  fills a hidden array row block by row block: rows [400 j, 400 j + 400) of
      H = relu (A · (X · W1) + b1) · W2
  come from row block j of A alone.  On the second walk it emits the result the same way: rows
  [400 j, 400 j + 400) of  A · H + b2  come from row block j of A and the WHOLE of H.
  So each row of either array is read here through the row block it lies in (row / 400) at its place
  inside that block (row % 400), over the three stored values of the kernel body
  (X · W1; the hidden rows of a block; the result rows of a block).
-/
import proofs.«105198_g50946902065447_cont_8to1c4_757_4_alg».proof.Proof.Gen.KernelIdeal.Skeleton
import Idealize.ShloMosaic.Lib.ValueIdx

noncomputable section

namespace Cert.KernelIdeal.Gcn

open Cert.KernelIdeal Cert.KernelIdeal.Gen Idealize.ShloMosaic Idealize.ShloMosaic.ValueIdx

variable {F : FTy → Type} [FloatOps F]

/-- Row block `j` of the adjacency matrix: its rows `[400 j, 400 j + 400)`, every column. -/
def adjRows (adj : Vec F S10000x10000 .f32) (j : Fin 25) : Vec F S400x10000 .f32 :=
  fun y => adj (ix2 (⟨400 * j.val + (y 0).val, by have := idx2_lt0 y; have := j.isLt; omega⟩ : Fin 10000) (y 1))

/-- The row block a row of a 10000-row, 121-column array lies in. -/
def rowBlock (y : S10000x121.Idx) : Fin 25 := ⟨(y 0).val / 400, by have := idx2_lt0 y; omega⟩

/-- Its place inside that block: row `row % 400`, the same column. -/
def inBlock (y : S10000x121.Idx) : S400x121.Idx :=
  ix2 (⟨(y 0).val % 400, Nat.mod_lt _ (by norm_num)⟩ : Fin 400) (y 1)

/-- A row is its block's first row plus its place in the block. -/
theorem row_eq (y : S10000x121.Idx) : (y 0).val = 400 * (rowBlock y).val + ((inBlock y) 0).val := by
  show (y 0).val = 400 * ((y 0).val / 400) + (y 0).val % 400
  omega

/-- The hidden array `relu (A · S1 + b1) · W2`, each row through its row block of `A`. -/
def hidden (blk : Fin 25 → Vec F S400x10000 .f32) (s1 : Vec F S10000x64 .f32) (b1r : Vec F S1x64 .f32)
    (w2 : Vec F S64x121 .f32) : Vec F S10000x121 .f32 :=
  fun y => k0_pay2 (blk (rowBlock y)) s1 b1r w2 (inBlock y)

/-- The result `A · H + b2`, each row through its row block of `A`. -/
def logits (blk : Fin 25 → Vec F S400x10000 .f32) (h : Vec F S10000x121 .f32) (b2r : Vec F S1x121 .f32) :
    Vec F S10000x121 .f32 :=
  fun y => k0_pay3 (blk (rowBlock y)) h b2r (inBlock y)

/-- The whole network: `A · (relu (A · (X · W1) + b1) · W2) + b2` with the biases as one-row arrays. -/
def gcn (x : Vec F S10000x128 .f32) (adj : Vec F S10000x10000 .f32) (w1 : Vec F S128x64 .f32)
    (b1r : Vec F S1x64 .f32) (w2 : Vec F S64x121 .f32) (b2r : Vec F S1x121 .f32) : Vec F S10000x121 .f32 :=
  logits (adjRows adj) (hidden (adjRows adj) (k0_pay1 x w1) b1r w2) b2r

end Cert.KernelIdeal.Gcn

end
-- ==== Proof.Body.lean ====
/-
  The kernel body run once, in each of the three situations a grid point can be in.

  The body has three guarded parts.  At the very first point it computes S1 = X · W1 into the first scratch
  array.  At every point of the first walk over the adjacency matrix (the first included) it computes, from
  the staged row block of A, the 400 hidden rows  relu (A_blk · S1 + b1) · W2  and puts them into rows
  [400 j, 400 j + 400) of the second scratch array, leaving its other rows alone.  At every point of the
  second walk it computes  A_blk · H + b2  from the staged row block and the WHOLE second scratch array and
  puts it into the output's staging block.  Each statement below says, for one situation, what every buffer
  holds afterwards as a pure function of what it held before; nothing else is touched.
-/
import proofs.«105198_g50946902065447_cont_8to1c4_757_4_alg».proof.Proof.Gen.KernelIdeal.Frame
import proofs.«105198_g50946902065447_cont_8to1c4_757_4_alg».proof.Proof.Gen.KernelIdeal.Skeleton
import proofs.«105198_g50946902065447_cont_8to1c4_757_4_alg».proof.Proof.Spec
import Idealize.ShloMosaic.Lib.WritesUnit
import Idealize.ShloMosaic.Lib.Pipeline.Value
set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The first point of the grid: both coordinates zero (the condition of the body's first branch). -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The first walk over the adjacency matrix (the condition of the body's second branch). -/
abbrev inFirstWalk (i : grid0.Coords) : Prop := k0_cond2 i = 1#1
/-- The second walk (the condition of the body's third branch). -/
abbrev inSecondWalk (i : grid0.Coords) : Prop := k0_cond3 i = 1#1

/-- `d` with its rows `[o, o + 400)` replaced by the 400 rows of `w`. -/
def putRows (o : ℕ) (d : Vec F S10000x121 .f32) (w : Vec F S400x121 .f32) : Vec F S10000x121 .f32 :=
  fun y => if h : o ≤ (y 0).val ∧ (y 0).val < o + 400 then w (ix2 (⟨(y 0).val - o, by omega⟩ : Fin 400) (y 1)) else d y

theorem putRows_of_mem (o : ℕ) (d : Vec F S10000x121 .f32) (w : Vec F S400x121 .f32) (y : S10000x121.Idx)
    (h : o ≤ (y 0).val ∧ (y 0).val < o + 400) : putRows o d w y = w (ix2 (⟨(y 0).val - o, by omega⟩ : Fin 400) (y 1)) := by
  unfold putRows; rw [dif_pos h]

theorem putRows_of_not_mem (o : ℕ) (d : Vec F S10000x121 .f32) (w : Vec F S400x121 .f32) (y : S10000x121.Idx)
    (h : ¬(o ≤ (y 0).val ∧ (y 0).val < o + 400)) : putRows o d w y = d y := by
  unfold putRows; rw [dif_neg h]

/-- ONE STEP OF THE FIRST WALK, as arithmetic on rows.  If the rows below `400 j` of `d` are already the hidden
    array's, then after rows `[400 j, 400 j + 400)` are replaced by the hidden rows computed from row block `j`, the
    rows below `400 (j + 1)` are: a row below `400 j` is untouched, and a row `r` in the new band lies in row block
    `r / 400 = j` at place `r % 400 = r - 400 j`. -/
theorem hidden_rows_step (blk : Fin 25 → Vec F S400x10000 .f32) (s1 : Vec F S10000x64 .f32) (b1r : Vec F S1x64 .f32)
    (w2 : Vec F S64x121 .f32) (d : Vec F S10000x121 .f32) (j : ℕ) (hj : j < 25)
    (hd : ∀ y : S10000x121.Idx, (y 0).val < 400 * j → d y = hidden blk s1 b1r w2 y) :
    ∀ y : S10000x121.Idx, (y 0).val < 400 * (j + 1) →
      putRows (400 * j) d (k0_pay2 (blk ⟨j, hj⟩) s1 b1r w2) y = hidden blk s1 b1r w2 y := by
  intro y hy
  by_cases h : 400 * j ≤ (y 0).val
  · have hm : 400 * j ≤ (y 0).val ∧ (y 0).val < 400 * j + 400 := ⟨h, by omega⟩
    rw [putRows_of_mem _ _ _ _ hm]
    unfold hidden
    have hb : rowBlock y = ⟨j, hj⟩ := Fin.ext (by show (y 0).val / 400 = j; omega)
    have hi : inBlock y = ix2 (⟨(y 0).val - 400 * j, by omega⟩ : Fin 400) (y 1) := by
      unfold inBlock
      congr 1
      exact Fin.ext (by show (y 0).val % 400 = (y 0).val - 400 * j; omega)
    rw [hb, hi]
    rfl
  · rw [putRows_of_not_mem _ _ _ _ (fun hm => h hm.1)]
    exact hd y (by omega)

/-- Two spellings of "offset zero on both axes". -/
theorem zero_off : (![0, 0] : Fin 2 → ℕ) = fun _ => 0 := by
  funext a; match a with | ⟨0, _⟩ => rfl | ⟨1, _⟩ => rfl

/-- A buffer read back after ONE store through its whole shape at offset zero holds the stored value,
    whatever it held before. -/
theorem read_one_whole_store {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h]

/-- A whole buffer read back after ONE store of 400 rows at row offset `400 · j`: the old contents with those rows replaced. -/
theorem read_store_rows (arg10 : Memref sig .tc .vmem S10000x121 .f32) (harg10 : arg10.IsWhole) (i : grid0.Coords)
    (hi : inFirstWalk i) (d : Vec F S10000x121 .f32) (w : Vec F S400x121 .f32) :
    View.read (Elt F) arg10.view (arg10.view.writes (Elt F) (harg10.unread d)
        [⟨Rect.unit (s := S10000x121) (k0_off1 i) S400x121.size (k0_off1_inb i hi), w⟩])
      = putRows (400 * (i 1).val) d w := by
  funext y
  rw [View.read_writes_cons_rows (o := 400 * (i 1).val) (W := 400) arg10.view (harg10.unread d) (k0_off1_inb i hi) w [] y (k0_off1_eq i) rfl rfl]
  unfold putRows
  split
  · next h =>
    congr 1
    funext a
    match a with
    | ⟨0, _⟩ => exact Fin.ext (by rw [Rect.unitLocal_val]; rfl)
    | ⟨1, _⟩ => exact Fin.ext (by rw [Rect.unitLocal_val]; show (y 1).val - 0 = (y 1).val; omega)
  · rw [View.writes_nil, harg10.read_unread]

set_option maxHeartbeats 1000000 in
/-- THE FIRST POINT: S1 is computed and stored whole, then the first 400 hidden rows. -/
theorem start_run (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x121 .f32) (harg5 : arg5.IsWhole) (arg6 : Memref sig .tc .vmem S1x121 .f32) (harg6 : arg6.IsWhole) (arg7 : Memref sig .tc .vmem S400x10000 .f32) (harg7 : arg7.IsWhole) (arg8 : Memref sig .tc .vmem S400x121 .f32) (harg8 : arg8.IsWhole) (arg9 : Memref sig .tc .vmem S10000x64 .f32) (harg9 : arg9.IsWhole) (arg10 : Memref sig .tc .vmem S10000x121 .f32) (harg10 : arg10.IsWhole) (hc0 : atStart i) (hc1 : inFirstWalk i) (hc2 : ¬inSecondWalk i)
    (x0 : Vec F S10000x128 .f32) (x1 : Vec F S128x64 .f32) (x2 : Vec F S1x64 .f32) (x3 : Vec F S64x121 .f32) (x4 : Vec F S1x121 .f32) (x5 : Vec F S400x10000 .f32) (x6 : Vec F S400x121 .f32) (xs1 : Vec F S10000x121 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x1)
            ∗ owns (c : Thread nD τ) arg10 fullShare (putRows (400 * (i 1).val) xs1 (k0_pay2 x5 (k0_pay1 x0 x1) x2 x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [HS0]
    · iexists _; isplitr; swap; · iexact HS0
      ipureintro
      sl_unfold_words
      rw [read_one_whole_store _ _ zero_off]
      simp only [View.readAt_eq_ld, harg2.read_unread, harg3.read_unread, View.ld_unit_zero (S := S10000x128) zero_off, View.ld_unit_zero (S := S128x64) zero_off]
    iexists _; isplitr; swap; · iexact HS1
    ipureintro
    sl_unfold_words
    simp only [View.readAt_eq_ld, harg7.read_unread, harg4.read_unread, harg5.read_unread, harg2.read_unread, harg3.read_unread,
      View.ld_unit_zero (S := S400x10000) zero_off, View.ld_unit_zero (S := S1x64) zero_off, View.ld_unit_zero (S := S64x121) zero_off,
      View.ld_unit_zero (S := S10000x128) zero_off, View.ld_unit_zero (S := S128x64) zero_off,
      View.readCov_unit_zero (S := S10000x64) _ zero_off]
    exact read_store_rows arg10 harg10 i hc1 xs1 _

set_option maxHeartbeats 1000000 in
/-- A LATER POINT OF THE FIRST WALK: S1 is read from the first scratch array, which is left as it was, and the
    point's 400 hidden rows are stored. -/
theorem firstWalk_run (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x121 .f32) (harg5 : arg5.IsWhole) (arg6 : Memref sig .tc .vmem S1x121 .f32) (harg6 : arg6.IsWhole) (arg7 : Memref sig .tc .vmem S400x10000 .f32) (harg7 : arg7.IsWhole) (arg8 : Memref sig .tc .vmem S400x121 .f32) (harg8 : arg8.IsWhole) (arg9 : Memref sig .tc .vmem S10000x64 .f32) (harg9 : arg9.IsWhole) (arg10 : Memref sig .tc .vmem S10000x121 .f32) (harg10 : arg10.IsWhole) (hc0 : ¬atStart i) (hc1 : inFirstWalk i) (hc2 : ¬inSecondWalk i)
    (x0 : Vec F S10000x128 .f32) (x1 : Vec F S128x64 .f32) (x2 : Vec F S1x64 .f32) (x3 : Vec F S64x121 .f32) (x4 : Vec F S1x121 .f32) (x5 : Vec F S400x10000 .f32) (x6 : Vec F S400x121 .f32) (xs0 : Vec F S10000x64 .f32) (xs1 : Vec F S10000x121 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0
            ∗ owns (c : Thread nD τ) arg10 fullShare (putRows (400 * (i 1).val) xs1 (k0_pay2 x5 xs0 x2 x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact hf6
      iexact H6
    isplitl [HS0]
    · iexists _; isplitr; · ipureintro; exact harg9.read_unread _
      iexact HS0
    iexists _; isplitr; swap; · iexact HS1
    ipureintro
    simp only [View.readAt_eq_ld, harg7.read_unread, harg4.read_unread, harg5.read_unread, harg9.read_unread,
      View.ld_unit_zero (S := S400x10000) zero_off, View.ld_unit_zero (S := S1x64) zero_off, View.ld_unit_zero (S := S64x121) zero_off,
      View.ld_unit_zero (S := S10000x64) zero_off]
    exact read_store_rows arg10 harg10 i hc1 xs1 _

set_option maxHeartbeats 1000000 in
/-- A POINT OF THE SECOND WALK: the result rows of the staged row block, from the whole hidden array, go into
    the output's staging block; both scratch arrays are left as they were. -/
theorem secondWalk_run (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x121 .f32) (harg5 : arg5.IsWhole) (arg6 : Memref sig .tc .vmem S1x121 .f32) (harg6 : arg6.IsWhole) (arg7 : Memref sig .tc .vmem S400x10000 .f32) (harg7 : arg7.IsWhole) (arg8 : Memref sig .tc .vmem S400x121 .f32) (harg8 : arg8.IsWhole) (arg9 : Memref sig .tc .vmem S10000x64 .f32) (harg9 : arg9.IsWhole) (arg10 : Memref sig .tc .vmem S10000x121 .f32) (harg10 : arg10.IsWhole) (hc0 : ¬atStart i) (hc1 : ¬inFirstWalk i) (hc2 : inSecondWalk i)
    (x0 : Vec F S10000x128 .f32) (x1 : Vec F S128x64 .f32) (x2 : Vec F S1x64 .f32) (x3 : Vec F S64x121 .f32) (x4 : Vec F S1x121 .f32) (x5 : Vec F S400x10000 .f32) (xs0 : Vec F S10000x64 .f32) (xs1 : Vec F S10000x121 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x5 xs1 x4) ∗ owns (c : Thread nD τ) arg9 fullShare xs0 ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      sl_unfold_words
      rw [read_one_whole_store _ _ zero_off]
      simp only [View.readAt_eq_ld, harg7.read_unread, harg10.read_unread, harg6.read_unread,
        View.ld_unit_zero (S := S400x10000) zero_off, View.ld_unit_zero (S := S10000x121) zero_off, View.ld_unit_zero (S := S1x121) zero_off]
    isplitl [HS0]
    · iexists _; isplitr; · ipureintro; exact harg9.read_unread _
      iexact HS0
    iexists _; isplitr; · ipureintro; exact harg10.read_unread _
    iexact HS1

end Cert.KernelIdeal.Gcn

end
-- ==== Proof.Run.lean ====
/-
  The whole run of the pipelined kernel, and what its result array holds.

  Fifty grid points: points 0..24 are the first walk over the adjacency matrix A (row block j = point), points
  25..49 the second (row block j = point - 25).  Between points the two scratch arrays carry the computation:
  from the first point on the first holds S1 = X · W1, and before point n the rows below 400 · min n 25 of the
  second hold the hidden array H = relu (A · S1 + b1) · W2.  So when the second walk starts H is complete, and
  each of its points leaves rows [400 j, 400 j + 400) of  A · H + b2  in the output's staging block, which is
  then written back.  The output's block index stays 0 all through the first walk, where the body never
  touches the staging block and nothing is written back; the 25 blocks written back in the second walk tile
  the result array, so it ends holding  A · H + b2  everywhere.
-/
import proofs.«105198_g50946902065447_cont_8to1c4_757_4_alg».proof.Proof.Body
import Idealize.ShloMosaic.Lib.Pipeline.Value
import Idealize.ShloMosaic.Lib.Pipeline.Frame

set_option maxRecDepth 16384

noncomputable section

namespace Cert.KernelIdeal.Gcn

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid, decided point by point -/

theorem atStart_iff : ∀ t : Fin cfg0.N, atStart (grid0.coords t) ↔ t.val = 0 :=
  (by decide +kernel : ∀ t : Fin grid0.N, atStart (grid0.coords t) ↔ t.val = 0)
theorem inFirstWalk_iff : ∀ t : Fin cfg0.N, inFirstWalk (grid0.coords t) ↔ t.val < 25 :=
  (by decide +kernel : ∀ t : Fin grid0.N, inFirstWalk (grid0.coords t) ↔ t.val < 25)
theorem inSecondWalk_iff : ∀ t : Fin cfg0.N, inSecondWalk (grid0.coords t) ↔ 25 ≤ t.val :=
  (by decide +kernel : ∀ t : Fin grid0.N, inSecondWalk (grid0.coords t) ↔ 25 ≤ t.val)
/-- The row block a point works on: the point's second coordinate. -/
theorem block_of_point : ∀ t : Fin cfg0.N, ((grid0.coords t) 1).val = t.val % 25 :=
  (by decide +kernel : ∀ t : Fin grid0.N, ((grid0.coords t) 1).val = t.val % 25)

/-- No input window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly through the first walk, and written back exactly at the points of the second. -/
theorem idle6 : ∀ t : Fin cfg0.N, cfg0.idle 6 (grid0.coords t) = decide (t.val < 25) :=
  (by decide +kernel : ∀ t : Fin grid0.N, cfg0.idle 6 (grid0.coords t) = decide (t.val < 25))
theorem flush6 : ∀ t : Fin cfg0.N, (cfg0.win 6).flush t = decide (25 ≤ t.val) :=
  (by decide +kernel : ∀ t : Fin grid0.N, win0_6.flush t = decide (25 ≤ t.val))

/-- The block indices of the windows: the five small operands sit at block (0, 0) throughout; the adjacency window is
    at row block `point % 25`; the output window at row block 0 through the first walk, then `point - 25`. -/
theorem index_small : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) :=
  (by decide +kernel : ∀ t : Fin grid0.N, _)
theorem index_adj : ∀ t : Fin cfg0.N, win0_5.index t (0 : Fin 2) = t.val % 25 ∧ win0_5.index t (1 : Fin 2) = 0 :=
  (by decide +kernel : ∀ t : Fin grid0.N, _)
theorem index_out : ∀ t : Fin cfg0.N, win0_6.index t (0 : Fin 2) = t.val - 25 ∧ win0_6.index t (1 : Fin 2) = 0 :=
  (by decide +kernel : ∀ t : Fin grid0.N, _)

/-! ## The arrays as the region finds them, and the windows' blocks read off them -/

abbrev X (c : Dev nD) : Vec F S10000x128 .f32 := V m c main_arg0
abbrev A (c : Dev nD) : Vec F S10000x10000 .f32 := V m c main_arg1
abbrev W1 (c : Dev nD) : Vec F S128x64 .f32 := V m c main_arg2
abbrev B1 (c : Dev nD) : Vec F S1x64 .f32 := V m c main_call0_v0
abbrev W2 (c : Dev nD) : Vec F S64x121 .f32 := V m c main_arg4
abbrev B2 (c : Dev nD) : Vec F S1x121 .f32 := V m c main_call0_v1

/-- `X · W1`, the hidden array and the result, of the arrays as found. -/
def S1 (c : Dev nD) : Vec F S10000x64 .f32 := k0_pay1 (X m c) (W1 m c)
def H (c : Dev nD) : Vec F S10000x121 .f32 := hidden (adjRows (A m c)) (S1 m c) (B1 m c) (W2 m c)
def O (c : Dev nD) : Vec F S10000x121 .f32 := logits (adjRows (A m c)) (H m c) (B2 m c)

theorem O_eq (c : Dev nD) : O m c = gcn (X m c) (A m c) (W1 m c) (B1 m c) (W2 m c) (B2 m c) := rfl

/-- Each window's block at a point with its literal type. -/
abbrev xB (c : Dev nD) (t : Fin cfg0.N) : Vec F S10000x128 .f32 := iblk m c 0 t
abbrev w1B (c : Dev nD) (t : Fin cfg0.N) : Vec F S128x64 .f32 := iblk m c 1 t
abbrev b1B (c : Dev nD) (t : Fin cfg0.N) : Vec F S1x64 .f32 := iblk m c 2 t
abbrev w2B (c : Dev nD) (t : Fin cfg0.N) : Vec F S64x121 .f32 := iblk m c 3 t
abbrev b2B (c : Dev nD) (t : Fin cfg0.N) : Vec F S1x121 .f32 := iblk m c 4 t
abbrev adjB (c : Dev nD) (t : Fin cfg0.N) : Vec F S400x10000 .f32 := iblk m c 5 t

/-- A window at block (0, 0) whose block is the whole array reads the whole array. -/
theorem xB_eq (c : Dev nD) (t : Fin cfg0.N) : xB m c t = X m c := by
  funext y
  show V m c main_arg0 (((cfg0.win 0).blk t).view.emb y) = V m c main_arg0 y
  congr 1; funext a; apply Fin.ext
  show win0_0.index t a * S10000x128.size a + 1 * (y a).val = (y a).val
  rw [(index_small t).1 a]; omega
theorem w1B_eq (c : Dev nD) (t : Fin cfg0.N) : w1B m c t = W1 m c := by
  funext y
  show V m c main_arg2 (((cfg0.win 1).blk t).view.emb y) = V m c main_arg2 y
  congr 1; funext a; apply Fin.ext
  show win0_1.index t a * S128x64.size a + 1 * (y a).val = (y a).val
  rw [(index_small t).2.1 a]; omega
theorem b1B_eq (c : Dev nD) (t : Fin cfg0.N) : b1B m c t = B1 m c := by
  funext y
  show V m c main_call0_v0 (((cfg0.win 2).blk t).view.emb y) = V m c main_call0_v0 y
  congr 1; funext a; apply Fin.ext
  show win0_2.index t a * S1x64.size a + 1 * (y a).val = (y a).val
  rw [(index_small t).2.2.1 a]; omega
theorem w2B_eq (c : Dev nD) (t : Fin cfg0.N) : w2B m c t = W2 m c := by
  funext y
  show V m c main_arg4 (((cfg0.win 3).blk t).view.emb y) = V m c main_arg4 y
  congr 1; funext a; apply Fin.ext
  show win0_3.index t a * S64x121.size a + 1 * (y a).val = (y a).val
  rw [(index_small t).2.2.2.1 a]; omega
theorem b2B_eq (c : Dev nD) (t : Fin cfg0.N) : b2B m c t = B2 m c := by
  funext y
  show V m c main_call0_v1 (((cfg0.win 4).blk t).view.emb y) = V m c main_call0_v1 y
  congr 1; funext a; apply Fin.ext
  show win0_4.index t a * S1x121.size a + 1 * (y a).val = (y a).val
  rw [(index_small t).2.2.2.2 a]; omega
/-- The adjacency window's block at a point is row block `point % 25` of `A`. -/
theorem adjB_eq (c : Dev nD) (t : Fin cfg0.N) : adjB m c t = adjRows (A m c) ⟨t.val % 25, Nat.mod_lt _ (by norm_num)⟩ := by
  funext y
  show V m c main_arg1 (((cfg0.win 5).blk t).view.emb y) = V m c main_arg1 _
  congr 1; funext a; apply Fin.ext
  match a with
  | ⟨0, _⟩ =>
    show win0_5.index t (0 : Fin 2) * 400 + 1 * (y 0).val = 400 * (t.val % 25) + (y 0).val
    rw [(index_adj t).1]; omega
  | ⟨1, _⟩ =>
    show win0_5.index t (1 : Fin 2) * 10000 + 1 * (y 1).val = (y 1).val
    rw [(index_adj t).2]; omega

/-! ## What the scratch arrays hold between points -/

abbrev scM0 : Memref sig .tc .vmem S10000x64 .f32 := Memref.whole cc0_scratch0
abbrev scM1 : Memref sig .tc .vmem S10000x121 .f32 := Memref.whole cc0_scratch1

/-- What the launch hands the body besides the windows: the two scratch arrays at anything, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before point `n`: nothing known at the start; afterwards `S1` in the first scratch array and the hidden rows
    below `400 · min n 25` in the second. -/
def Inv (c : Dev nD) : (n : ℕ) → n ≤ cfg0.N → sProp 𝕄
  | 0, _ => Pipeline.ΦA spec0 c
  | n + 1, _ => iprop(iprop(owns (c : Thread nD τ) scM0 fullShare (S1 m c)
      ∗ (∃ d : Vec F S10000x121 .f32, ⌜∀ y : S10000x121.Idx, (y 0).val < 400 * min (n + 1) 25 → d y = H m c y⌝ ∗ owns (c : Thread nD τ) scM1 fullShare d))
      ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) scM0 fullShare (S1 m c)
      ∗ (∃ d : Vec F S10000x121 .f32, ⌜∀ y : S10000x121.Idx, (y 0).val < 400 * min (n + 1) 25 → d y = H m c y⌝ ∗ owns (c : Thread nD τ) scM1 fullShare d))
      ∗ (∃ r, prngReg c r)) := rfl
theorem Inv_pos (c : Dev nD) (n : ℕ) (h : n ≤ cfg0.N) (hz : n ≠ 0) :
    Inv m c n h = iprop(iprop(owns (c : Thread nD τ) scM0 fullShare (S1 m c)
      ∗ (∃ d : Vec F S10000x121 .f32, ⌜∀ y : S10000x121.Idx, (y 0).val < 400 * min n 25 → d y = H m c y⌝ ∗ owns (c : Thread nD τ) scM1 fullShare d))
      ∗ (∃ r, prngReg c r)) := by
  cases n with
  | zero => exact absurd rfl hz
  | succ n => rfl

/-! ## The pipeline's proof data -/

/-- The arrays as found; after the body each input's staging block is its block, the output's the result rows of the
    point's row block (read only at the points of the second walk); the scratch invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (adjB m c t) (H m c) (b2B m c t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay3 (adjB m c t) (H m c) (b2B m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation at a generic point -/

abbrev ms0 (t : Fin cfg0.N) : Memref sig .tc .vmem S10000x128 .f32 := win0_0.stage (cfg0.slots t 0)
abbrev ms1 (t : Fin cfg0.N) : Memref sig .tc .vmem S128x64 .f32 := win0_1.stage (cfg0.slots t 1)
abbrev ms2 (t : Fin cfg0.N) : Memref sig .tc .vmem S1x64 .f32 := win0_2.stage (cfg0.slots t 2)
abbrev ms3 (t : Fin cfg0.N) : Memref sig .tc .vmem S64x121 .f32 := win0_3.stage (cfg0.slots t 3)
abbrev ms4 (t : Fin cfg0.N) : Memref sig .tc .vmem S1x121 .f32 := win0_4.stage (cfg0.slots t 4)
abbrev ms5 (t : Fin cfg0.N) : Memref sig .tc .vmem S400x10000 .f32 := win0_5.stage (cfg0.slots t 5)
abbrev ms6 (t : Fin cfg0.N) : Memref sig .tc .vmem S400x121 .f32 := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point.  The inputs' staging blocks hold their blocks.  At the first point the scratch arrays hold
    anything and the body leaves `S1` and the first 400 hidden rows; at a later point of the first walk it finds `S1`
    and the rows below `400 t`, and adds the next 400; through the first walk the output's staging block is handed
    back as found.  At a point of the second walk the hidden array is complete (every row is below `400 · 25`), and
    the body leaves the point's result rows in the output's staging block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Inv m c (t.val + 1) t.isLt from rfl, Inv_succ]
  have hN : t.val < 50 := lt_of_lt_of_eq t.isLt (show cfg0.N = 50 from N_0)
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  by_cases h1 : t.val < 25
  · have hblk : ((grid0.coords t) 1).val = t.val := by rw [block_of_point t]; omega
    rw [(dats m 0 c).leavesExact_idle 6 t (by rw [idle6 t]; exact decide_eq_true h1) (by rw [flush6 t]; exact decide_eq_false (by omega))]
    by_cases hz : t.val = 0
    · rw [Inv_castSucc m c t, Inv_zero m c _ _ hz, PhiA_eq]
      iintro ⟨⟨⟨HS0, ⟨%d1, HS1⟩⟩, Hg⟩, Ho, ⟨%d0, H0⟩, ⟨%e1, H1⟩, ⟨%e2, H2⟩, ⟨%e3, H3⟩, ⟨%e4, H4⟩, ⟨%e5, H5⟩, ⟨%d6, H6⟩⟩
      iapply (start_run c (grid0.coords t) _ _ _ _ _ _ _ _ _ _ _ _ _ _ _ _ _ _ ((atStart_iff t).mpr hz) ((inFirstWalk_iff t).mpr h1) (fun h => absurd ((inSecondWalk_iff t).mp h) (by omega))
        (iblk m c 0 t) (iblk m c 1 t) (iblk m c 2 t) (iblk m c 3 t) (iblk m c 4 t) (iblk m c 5 t) ((dats m 0 c).before 6 t d6) d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · rw [show k0_pay1 (iblk m c 0 t) (iblk m c 1 t) = S1 m c from by
              unfold S1; rw [← xB_eq m c t, ← w1B_eq m c t]]
            iexact HS0
          iexists _; isplitr; swap; · iexact HS1
          ipureintro
          intro y hy
          have hstep := hidden_rows_step (adjRows (A m c)) (S1 m c) (B1 m c) (W2 m c) d1 t.val h1
            (fun y hy => absurd hy (by omega)) y (by have : min (t.val + 1) 25 = t.val + 1 := by omega
                                                     rw [this] at hy; exact hy)
          have hj : (⟨t.val % 25, Nat.mod_lt _ (by norm_num)⟩ : Fin 25) = ⟨t.val, h1⟩ := Fin.ext (by show t.val % 25 = t.val; omega)
          have hpay : k0_pay2 (iblk m c 5 t) (k0_pay1 (iblk m c 0 t) (iblk m c 1 t)) (iblk m c 2 t) (iblk m c 3 t)
              = k0_pay2 (adjRows (A m c) ⟨t.val, h1⟩) (S1 m c) (B1 m c) (W2 m c) := by
            show k0_pay2 (adjB m c t) (k0_pay1 (xB m c t) (w1B m c t)) (b1B m c t) (w2B m c t) = _
            rw [adjB_eq, xB_eq, w1B_eq, b1B_eq, w2B_eq, hj]; rfl
          rw [hblk, hpay]
          exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Inv_castSucc m c t, Inv_pos m c _ _ hz]
      iintro ⟨⟨⟨HS0, ⟨%d1, %hd1, HS1⟩⟩, Hg⟩, Ho, ⟨%d0, H0⟩, ⟨%e1, H1⟩, ⟨%e2, H2⟩, ⟨%e3, H3⟩, ⟨%e4, H4⟩, ⟨%e5, H5⟩, ⟨%d6, H6⟩⟩
      iapply (firstWalk_run c (grid0.coords t) _ _ _ _ _ _ _ _ _ _ _ _ _ _ _ _ _ _ (fun h => hz ((atStart_iff t).mp h)) ((inFirstWalk_iff t).mpr h1) (fun h => absurd ((inSecondWalk_iff t).mp h) (by omega))
        (iblk m c 0 t) (iblk m c 1 t) (iblk m c 2 t) (iblk m c 3 t) (iblk m c 4 t) (iblk m c 5 t) ((dats m 0 c).before 6 t d6) (S1 m c) d1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          intro y hy
          have hstep := hidden_rows_step (adjRows (A m c)) (S1 m c) (B1 m c) (W2 m c) d1 t.val h1
            (fun y hy => hd1 y (by have : min t.val 25 = t.val := by omega
                                   rw [this]; exact hy)) y (by have : min (t.val + 1) 25 = t.val + 1 := by omega
                                                               rw [this] at hy; exact hy)
          have hj : (⟨t.val % 25, Nat.mod_lt _ (by norm_num)⟩ : Fin 25) = ⟨t.val, h1⟩ := Fin.ext (by show t.val % 25 = t.val; omega)
          have hpay : k0_pay2 (iblk m c 5 t) (S1 m c) (iblk m c 2 t) (iblk m c 3 t)
              = k0_pay2 (adjRows (A m c) ⟨t.val, h1⟩) (S1 m c) (B1 m c) (W2 m c) := by
            show k0_pay2 (adjB m c t) (S1 m c) (b1B m c t) (w2B m c t) = _
            rw [adjB_eq, b1B_eq, w2B_eq, hj]
          rw [hblk, hpay]
          exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    rw [show (dats m 0 c).leavesExact 6 t = owns (c : Thread nD τ) (ms6 t) fullShare ((dats m 0 c).after 6 t) from by
      unfold Dat.leavesExact; rw [idle6 t, decide_eq_false h1], after_6]
    rw [Inv_castSucc m c t, Inv_pos m c _ _ hz]
    iintro ⟨⟨⟨HS0, ⟨%d1, %hd1, HS1⟩⟩, Hg⟩, Ho, ⟨%d0, H0⟩, ⟨%e1, H1⟩, ⟨%e2, H2⟩, ⟨%e3, H3⟩, ⟨%e4, H4⟩, ⟨%e5, H5⟩, ⟨%d6, H6⟩⟩
    obtain rfl : d1 = H m c := funext fun y => hd1 y (by
      have : min t.val 25 = 25 := by omega
      rw [this]; have := idx2_lt0 y; omega)
    iapply (secondWalk_run c (grid0.coords t) _ _ _ _ _ _ _ _ _ _ _ _ _ _ _ _ _ _ (fun h => hz ((atStart_iff t).mp h)) (fun h => h1 ((inFirstWalk_iff t).mp h)) ((inSecondWalk_iff t).mpr (by omega))
      (iblk m c 0 t) (iblk m c 1 t) (iblk m c 2 t) (iblk m c 3 t) (iblk m c 4 t) (iblk m c 5 t) (S1 m c) (H m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists _; isplitr; swap; · iexact HS1
        ipureintro
        intro y _; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After the last point the invariant gives the scratch arrays back at anything. -/
theorem hout (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 50 := N_0; omega), PhiA_eq]
  iintro ⟨⟨HS0, ⟨%d, -, HS1⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline at what the library computes from the
    proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the six argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gcn

end
-- ==== Proof.Final.lean ====
/-
  What the result array holds after the run: `A · H + b2`, as one function of the six arrays the program was
  launched with.

  Point 25 + j of the grid leaves the result rows of row block j in the output's staging block and writes them back
  to rows [400 j, 400 j + 400) of the result array; these 25 bands tile the 10000 rows, and row r lies in the band
  of point 25 + r / 400.  Every written-back block is therefore the corresponding block of ONE whole-array function,
  and the array ends equal to it.  The two bias operands are the host's one-row reshapes of the bias vectors.
-/
import proofs.«105198_g50946902065447_cont_8to1c4_757_4_alg».proof.Proof.Run
import Idealize.ShloMosaic.Lib.StableHlo.Run

set_option maxRecDepth 16384

noncomputable section

namespace Cert.KernelIdeal.Gcn

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- WHAT A POINT OF THE SECOND WALK WRITES BACK is its block of the result: an element at place `y` of the block of
    point `t` is row `400 (t - 25) + y₀`, column `y₁` of the array, which lies in row block `t - 25 = t % 25` at place `y`. -/
theorem flushed_out (c : Dev nD) (t : Fin cfg0.N) (ht : 25 ≤ t.val) :
    (dats m 0 c).flushed 6 t = ((cfg0.win 6).blk t).view.read (Elt F) (O m c) := by
  have hN : t.val < 50 := lt_of_lt_of_eq t.isLt (show cfg0.N = 50 from N_0)
  show (cfg0.win 6).cut (grid0.coords t) ((dats m 0 c).after 6 t) = _
  rw [after_6]
  funext y
  show k0_pay3 (adjB m c t) (H m c) (b2B m c t) y = O m c (((cfg0.win 6).blk t).view.emb y)
  have hy0 : (y 0).val < 400 := (y 0).isLt
  have he0 : ((((cfg0.win 6).blk t).view.emb y) 0).val = 400 * (t.val - 25) + (y 0).val := by
    show win0_6.index t (0 : Fin 2) * 400 + 1 * (y 0).val = _
    rw [(index_out t).1]; omega
  have he1 : ((((cfg0.win 6).blk t).view.emb y) 1).val = (y 1).val := by
    show win0_6.index t (1 : Fin 2) * 121 + 1 * (y 1).val = _
    rw [(index_out t).2]; omega
  have hb : rowBlock (((cfg0.win 6).blk t).view.emb y) = ⟨t.val % 25, Nat.mod_lt _ (by norm_num)⟩ :=
    Fin.ext (by show ((((cfg0.win 6).blk t).view.emb y) 0).val / 400 = t.val % 25; rw [he0]; omega)
  have hi : inBlock (((cfg0.win 6).blk t).view.emb y) = y := by
    funext a
    match a with
    | ⟨0, _⟩ => exact Fin.ext (by show ((((cfg0.win 6).blk t).view.emb y) 0).val % 400 = (y 0).val; rw [he0]; omega)
    | ⟨1, _⟩ => exact Fin.ext he1
  unfold O logits
  rw [hb, hi, adjB_eq, b2B_eq]

/-- An index of the result array is in point `t`'s block iff each coordinate is in the block's range on its axis. -/
theorem mem_blk_out (t : Fin cfg0.N) (i : S10000x121.Idx) :
    i ∈ ((cfg0.win 6).blk t).view.set ↔ ∀ a : Fin 2, win0_6.index t a * S400x121.size a ≤ (i a).val ∧ (i a).val < win0_6.index t a * S400x121.size a + S400x121.size a := by
  show i ∈ ((View.whole main_v0).slice (win0_6.rect t)).set ↔ _
  rw [View.set_slice_whole, Rect.mem_set_unit]
  exact Iff.rfl

/-- Every row is written back by some point of the second walk: row `r` by point `25 + r / 400`. -/
theorem covered (i : S10000x121.Idx) :
    ∃ t : Fin cfg0.N, (cfg0.win 6).flush t = true ∧ i ∈ ((cfg0.win 6).blk t).view.set := by
  have hi0 : (i 0).val < 10000 := idx2_lt0 i
  have hi1 : (i 1).val < 121 := (i 1).isLt
  have hlt : 25 + (i 0).val / 400 < cfg0.N := by rw [show cfg0.N = 50 from N_0]; omega
  refine ⟨⟨25 + (i 0).val / 400, hlt⟩, by rw [flush6]; exact decide_eq_true (by show 25 ≤ 25 + (i 0).val / 400; omega), ?_⟩
  rw [mem_blk_out]
  intro a
  match a with
  | ⟨0, _⟩ =>
    show win0_6.index ⟨25 + (i 0).val / 400, hlt⟩ (0 : Fin 2) * 400 ≤ (i 0).val ∧ (i 0).val < win0_6.index ⟨25 + (i 0).val / 400, hlt⟩ (0 : Fin 2) * 400 + 400
    rw [(index_out ⟨25 + (i 0).val / 400, hlt⟩).1]
    show (25 + (i 0).val / 400 - 25) * 400 ≤ (i 0).val ∧ (i 0).val < (25 + (i 0).val / 400 - 25) * 400 + 400
    omega
  | ⟨1, _⟩ =>
    show win0_6.index ⟨25 + (i 0).val / 400, hlt⟩ (1 : Fin 2) * 121 ≤ (i 1).val ∧ (i 1).val < win0_6.index ⟨25 + (i 0).val / 400, hlt⟩ (1 : Fin 2) * 121 + 121
    rw [(index_out ⟨25 + (i 0).val / 400, hlt⟩).2]
    omega

/-- THE RESULT ARRAY after the run. -/
theorem final_out (c : Dev nD) : (dats m 0 c).arrAt 6 cfg0.N = O m c :=
  (dats m 0 c).arrAt_eq_of_cover 6 (O m c)
    (fun t hf => flushed_out m c t (by rw [flush6] at hf; exact of_decide_eq_true hf)) covered

/-- The bias operands the region finds: the host's one-row reshapes of the launch contents. -/
theorem B1_eq (c : Dev nD) : B1 m c = shapeCast S1x64 (m ((c : Thread nD τ).loc main_arg3)) shapeCasts_S64_S1x64 := by
  show (V m c main_call0_v0 : S1x64.Idx → Elt F .f32) = _
  dsimp only [V, hostOps0]; after_results; rfl
theorem B2_eq (c : Dev nD) : B2 m c = shapeCast S1x121 (m ((c : Thread nD τ).loc main_arg5)) shapeCasts_S121_S1x121 := by
  show (V m c main_call0_v1 : S1x121.Idx → Elt F .f32) = _
  dsimp only [V, hostOps0]; after_results; rfl

/-- The result as one function of the launch contents of the six arguments. -/
theorem O_launch (c : Dev nD) :
    O m c = gcn (m ((c : Thread nD τ).loc main_arg0)) (m ((c : Thread nD τ).loc main_arg1)) (m ((c : Thread nD τ).loc main_arg2))
      (shapeCast S1x64 (m ((c : Thread nD τ).loc main_arg3)) shapeCasts_S64_S1x64) (m ((c : Thread nD τ).loc main_arg4))
      (shapeCast S1x121 (m ((c : Thread nD τ).loc main_arg5)) shapeCasts_S121_S1x121) := by
  rw [O_eq, B1_eq, B2_eq]
  rw [show X m c = m ((c : Thread nD τ).loc main_arg0) from V_main_arg0 m c,
    show A m c = m ((c : Thread nD τ).loc main_arg1) from V_main_arg1 m c,
    show W1 m c = m ((c : Thread nD τ).loc main_arg2) from V_main_arg2 m c,
    show W2 m c = m ((c : Thread nD τ).loc main_arg4) from V_main_arg4 m c]

/-- THE RUN, READ: every weakly fair execution terminates with the result array at the network's value of the launch
    contents and the six arguments unchanged. -/
theorem run_value : θ_run defs (onTc (τ := τ) (main (F := F))) ⟨m, fun _ => 0, ρ⟩ (fun r => ∀ c : Dev nD,
      r.2.mem ((c.tc : Thread nD τ).loc main_v0) = gcn (m ((c : Thread nD τ).loc main_arg0)) (m ((c : Thread nD τ).loc main_arg1)) (m ((c : Thread nD τ).loc main_arg2))
          (shapeCast S1x64 (m ((c : Thread nD τ).loc main_arg3)) shapeCasts_S64_S1x64) (m ((c : Thread nD τ).loc main_arg4))
          (shapeCast S1x121 (m ((c : Thread nD τ).loc main_arg5)) shapeCasts_S121_S1x121)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).1 6).trans (final_out m c)).trans (O_launch m c),
      ((h c).1 0).trans (((dats m 0 c).arrAt_in 0 rfl _).trans ((A_eq m c 0).trans (V_main_arg0 m c))),
      ((h c).1 5).trans (((dats m 0 c).arrAt_in 5 rfl _).trans ((A_eq m c 5).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main m ρ)

end Cert.KernelIdeal.Gcn

end
-- ==== Proof.GcnIdeal.lean ====
/-
  The two-layer graph convolution of the kernel body, read at the exact reals, is the reference's value.

  Both sides are  A · (relu (A · (X · W1) + b1) · W2) + b2  with every product an exact finite sum, so they agree
  index by index: at row r and column d each is
      (∑ k < 10000, A[r,k] · H[k,d]) + b2[d],
      H[k,d] = ∑ c < 64, max ((∑ l < 10000, A[k,l] · S[l,c]) + b1[c], 0) · W2[c,d],
      S[l,c] = ∑ f < 128, X[l,f] · W1[f,c].
  No sum is re-associated and nothing is distributed; the only re-indexing is that row  r  of A is row  r % 400  of
  the row block  r / 400  of A.
-/
import proofs.«105198_g50946902065447_cont_8to1c4_757_4_alg».proof.Proof.Spec
import proofs.«105198_g50946902065447_cont_8to1c4_757_4_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GcnIdeal

open Cert.KernelIdeal Cert.KernelIdeal.Gen Cert.KernelIdeal.Gcn Idealize.ShloMosaic Idealize.ShloMosaic.ValueIdx

/-! ## Each matrix product of the kernel body at an index: the plain sum over the contracted axis -/

/-! ### `10000x128 · 128x64` -/

theorem lhs_xw_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_xw_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_xw_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_xw_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl
/-- The product into the zero accumulator at `(r, c)`: `∑ k, a[r,k] · b[k,c]`. -/
theorem mm_xw_apply (a : FVec Ideal S10000x128 .f32) (b : FVec Ideal S128x64 .f32) (r : Fin 10000) (c : Fin 64) :
    matmul (F := Ideal) dot_S10000x128_S128x64_S10000x64_1_0_0_1_n_n none a b (constant (F := Ideal) S10000x64 .f32 0x00000000#32) (ix2 r c)
      = ∑ k : Fin 128, a (ix2 r k) * b (ix2 k c) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 r c) ((ValueIdx.contrEquiv1 dot_S10000x128_S128x64_S10000x64_1_0_0_1_n_n 128 rfl rfl).symm k) = ix2 r k := funext fun a => Fin.ext (by
    match a with
    | ⟨0, _⟩ => exact lhs_xw_0 _ _
    | ⟨1, _⟩ => exact (lhs_xw_1 _ _).trans hk)
  have er : dot_S10000x128_S128x64_S10000x64_1_0_0_1_n_n.rhsIdx (ix2 r c) ((ValueIdx.contrEquiv1 dot_S10000x128_S128x64_S10000x64_1_0_0_1_n_n 128 rfl rfl).symm k) = ix2 k c := funext fun a => Fin.ext (by
    match a with
    | ⟨0, _⟩ => exact (rhs_xw_0 _ _).trans hk
    | ⟨1, _⟩ => exact rhs_xw_1 _ _)
  rw [el, er]

/-! ### `400x10000 · 10000x64` -/

theorem lhs_as_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_as_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_as_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_as_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl
/-- The product into the zero accumulator at `(r, c)`: `∑ k, a[r,k] · b[k,c]`. -/
theorem mm_as_apply (a : FVec Ideal S400x10000 .f32) (b : FVec Ideal S10000x64 .f32) (r : Fin 400) (c : Fin 64) :
    matmul (F := Ideal) dot_S400x10000_S10000x64_S400x64_1_0_0_1_n_n none a b (constant (F := Ideal) S400x64 .f32 0x00000000#32) (ix2 r c)
      = ∑ k : Fin 10000, a (ix2 r k) * b (ix2 k c) := by
  simp only [matmul]
  rw [Ideal.matmul_constant_zero_apply, ← Equiv.sum_comp (ValueIdx.contrEquiv1 dot_S400x10000_S10000x64_S400x64_1_0_0_1_n_n 10000 rfl rfl).symm]
  refine Finset.sum_congr rfl fun k _ => ?_
  have hk := ValueIdx.contrEquiv1_symm_val dot_S400x10000_S10000x64_S400x64_1_0_0_1_n_n 10000 rfl rfl k
  have el : dot_S400x10000_S10000x64_S400x64_1_0_0_1_n_n.lhsIdx (ix2 r c) ((ValueIdx.contrEquiv1 dot_S400x10000_S10000x64_S400x64_1_0_0_1_n_n 10000 rfl rfl).symm k) = ix2 r k := funext fun a => Fin.ext (by
    match a with
    | ⟨0, _⟩ => exact lhs_as_0 _ _
    | ⟨1, _⟩ => exact (lhs_as_1 _ _).trans hk)
  have er : dot_S400x10000_S10000x64_S400x64_1_0_0_1_n_n.rhsIdx (ix2 r c) ((ValueIdx.contrEquiv1 dot_S400x10000_S10000x64_S400x64_1_0_0_1_n_n 10000 rfl rfl).symm k) = ix2 k c := funext fun a => Fin.ext (by
    match a with
    | ⟨0, _⟩ => exact (rhs_as_0 _ _).trans hk
    | ⟨1, _⟩ => exact rhs_as_1 _ _)
  rw [el, er]

/-! ### `400x64 · 64x121` -/

theorem lhs_hw_0 (i : S400x121.Idx) (q : dot_S400x64_S64x121_S400x121_1_0_0_1_n_n.contr.Idx) :
    (dot_S400x64_S64x121_S400x121_1_0_0_1_n_n.lhsIdx i q 0).val = (i 0).val := by
  unfold DotDims.lhsIdx
  rw [dif_neg (show ¬(0 : Fin S400x64.rank) ∈ dot_S400x64_S64x121_S400x121_1_0_0_1_n_n.lhsBatch by decide), dif_pos (show (0 : Fin S400x64.rank) ∈ dot_S400x64_S64x121_S400x121_1_0_0_1_n_n.lhsNonContracting by decide)]
  rfl
theorem lhs_hw_1 (i : S400x121.Idx) (q : dot_S400x64_S64x121_S400x121_1_0_0_1_n_n.contr.Idx) :
    (dot_S400x64_S64x121_S400x121_1_0_0_1_n_n.lhsIdx i q 1).val = (q ⟨0, by decide⟩).val :=
  dot_S400x64_S64x121_S400x121_1_0_0_1_n_n.lhsIdx_val_of_single rfl i q
theorem rhs_hw_0 (i : S400x121.Idx) (q : dot_S400x64_S64x121_S400x121_1_0_0_1_n_n.contr.Idx) :
    (dot_S400x64_S64x121_S400x121_1_0_0_1_n_n.rhsIdx i q 0).val = (q ⟨0, by decide⟩).val :=
  dot_S400x64_S64x121_S400x121_1_0_0_1_n_n.rhsIdx_val_of_single rfl i q
theorem rhs_hw_1 (i : S400x121.Idx) (q : dot_S400x64_S64x121_S400x121_1_0_0_1_n_n.contr.Idx) :
    (dot_S400x64_S64x121_S400x121_1_0_0_1_n_n.rhsIdx i q 1).val = (i 1).val := by
  unfold DotDims.rhsIdx
  rw [dif_neg (show ¬(1 : Fin S64x121.rank) ∈ dot_S400x64_S64x121_S400x121_1_0_0_1_n_n.rhsBatch by decide), dif_pos (show (1 : Fin S64x121.rank) ∈ dot_S400x64_S64x121_S400x121_1_0_0_1_n_n.rhsNonContracting by decide)]
  rfl
/-- The product into the zero accumulator at `(r, c)`: `∑ k, a[r,k] · b[k,c]`. -/
theorem mm_hw_apply (a : FVec Ideal S400x64 .f32) (b : FVec Ideal S64x121 .f32) (r : Fin 400) (c : Fin 121) :
    matmul (F := Ideal) dot_S400x64_S64x121_S400x121_1_0_0_1_n_n none a b (constant (F := Ideal) S400x121 .f32 0x00000000#32) (ix2 r c)
      = ∑ k : Fin 64, a (ix2 r k) * b (ix2 k c) := by
  simp only [matmul]
  rw [Ideal.matmul_constant_zero_apply, ← Equiv.sum_comp (ValueIdx.contrEquiv1 dot_S400x64_S64x121_S400x121_1_0_0_1_n_n 64 rfl rfl).symm]
  refine Finset.sum_congr rfl fun k _ => ?_
  have hk := ValueIdx.contrEquiv1_symm_val dot_S400x64_S64x121_S400x121_1_0_0_1_n_n 64 rfl rfl k
  have el : dot_S400x64_S64x121_S400x121_1_0_0_1_n_n.lhsIdx (ix2 r c) ((ValueIdx.contrEquiv1 dot_S400x64_S64x121_S400x121_1_0_0_1_n_n 64 rfl rfl).symm k) = ix2 r k := funext fun a => Fin.ext (by
    match a with
    | ⟨0, _⟩ => exact lhs_hw_0 _ _
    | ⟨1, _⟩ => exact (lhs_hw_1 _ _).trans hk)
  have er : dot_S400x64_S64x121_S400x121_1_0_0_1_n_n.rhsIdx (ix2 r c) ((ValueIdx.contrEquiv1 dot_S400x64_S64x121_S400x121_1_0_0_1_n_n 64 rfl rfl).symm k) = ix2 k c := funext fun a => Fin.ext (by
    match a with
    | ⟨0, _⟩ => exact (rhs_hw_0 _ _).trans hk
    | ⟨1, _⟩ => exact rhs_hw_1 _ _)
  rw [el, er]

/-! ### `400x10000 · 10000x121` -/

theorem lhs_ah_0 (i : S400x121.Idx) (q : dot_S400x10000_S10000x121_S400x121_1_0_0_1_n_n.contr.Idx) :
    (dot_S400x10000_S10000x121_S400x121_1_0_0_1_n_n.lhsIdx i q 0).val = (i 0).val := by
  unfold DotDims.lhsIdx
  rw [dif_neg (show ¬(0 : Fin S400x10000.rank) ∈ dot_S400x10000_S10000x121_S400x121_1_0_0_1_n_n.lhsBatch by decide), dif_pos (show (0 : Fin S400x10000.rank) ∈ dot_S400x10000_S10000x121_S400x121_1_0_0_1_n_n.lhsNonContracting by decide)]
  rfl
theorem lhs_ah_1 (i : S400x121.Idx) (q : dot_S400x10000_S10000x121_S400x121_1_0_0_1_n_n.contr.Idx) :
    (dot_S400x10000_S10000x121_S400x121_1_0_0_1_n_n.lhsIdx i q 1).val = (q ⟨0, by decide⟩).val :=
  dot_S400x10000_S10000x121_S400x121_1_0_0_1_n_n.lhsIdx_val_of_single rfl i q
theorem rhs_ah_0 (i : S400x121.Idx) (q : dot_S400x10000_S10000x121_S400x121_1_0_0_1_n_n.contr.Idx) :
    (dot_S400x10000_S10000x121_S400x121_1_0_0_1_n_n.rhsIdx i q 0).val = (q ⟨0, by decide⟩).val :=
  dot_S400x10000_S10000x121_S400x121_1_0_0_1_n_n.rhsIdx_val_of_single rfl i q
theorem rhs_ah_1 (i : S400x121.Idx) (q : dot_S400x10000_S10000x121_S400x121_1_0_0_1_n_n.contr.Idx) :
    (dot_S400x10000_S10000x121_S400x121_1_0_0_1_n_n.rhsIdx i q 1).val = (i 1).val := by
  unfold DotDims.rhsIdx
  rw [dif_neg (show ¬(1 : Fin S10000x121.rank) ∈ dot_S400x10000_S10000x121_S400x121_1_0_0_1_n_n.rhsBatch by decide), dif_pos (show (1 : Fin S10000x121.rank) ∈ dot_S400x10000_S10000x121_S400x121_1_0_0_1_n_n.rhsNonContracting by decide)]
  rfl
/-- The product into the zero accumulator at `(r, c)`: `∑ k, a[r,k] · b[k,c]`. -/
theorem mm_ah_apply (a : FVec Ideal S400x10000 .f32) (b : FVec Ideal S10000x121 .f32) (r : Fin 400) (c : Fin 121) :
    matmul (F := Ideal) dot_S400x10000_S10000x121_S400x121_1_0_0_1_n_n none a b (constant (F := Ideal) S400x121 .f32 0x00000000#32) (ix2 r c)
      = ∑ k : Fin 10000, a (ix2 r k) * b (ix2 k c) := by
  simp only [matmul]
  rw [Ideal.matmul_constant_zero_apply, ← Equiv.sum_comp (ValueIdx.contrEquiv1 dot_S400x10000_S10000x121_S400x121_1_0_0_1_n_n 10000 rfl rfl).symm]
  refine Finset.sum_congr rfl fun k _ => ?_
  have hk := ValueIdx.contrEquiv1_symm_val dot_S400x10000_S10000x121_S400x121_1_0_0_1_n_n 10000 rfl rfl k
  have el : dot_S400x10000_S10000x121_S400x121_1_0_0_1_n_n.lhsIdx (ix2 r c) ((ValueIdx.contrEquiv1 dot_S400x10000_S10000x121_S400x121_1_0_0_1_n_n 10000 rfl rfl).symm k) = ix2 r k := funext fun a => Fin.ext (by
    match a with
    | ⟨0, _⟩ => exact lhs_ah_0 _ _
    | ⟨1, _⟩ => exact (lhs_ah_1 _ _).trans hk)
  have er : dot_S400x10000_S10000x121_S400x121_1_0_0_1_n_n.rhsIdx (ix2 r c) ((ValueIdx.contrEquiv1 dot_S400x10000_S10000x121_S400x121_1_0_0_1_n_n 10000 rfl rfl).symm k) = ix2 k c := funext fun a => Fin.ext (by
    match a with
    | ⟨0, _⟩ => exact (rhs_ah_0 _ _).trans hk
    | ⟨1, _⟩ => exact rhs_ah_1 _ _)
  rw [el, er]

/-! ## The three stored values of the kernel body at an index -/

/-- `X · W1` at `(l, c)`. -/
theorem pay1_apply (x : Vec Ideal S10000x128 .f32) (w : Vec Ideal S128x64 .f32) (l : Fin 10000) (c : Fin 64) :
    k0_pay1 (F := Ideal) x w (ix2 l c) = ∑ f : Fin 128, x (ix2 l f) * w (ix2 f c) := by
  unfold k0_pay1
  rw [shapeCast_self]
  exact mm_xw_apply x w l c

/-- The hidden rows of a block at `(p, d)`: `∑ c, max ((∑ l, a[p,l] · s[l,c]) + b1[c], 0) · W2[c,d]`, the zero being the
    word `0x00000000` read as a real. -/
theorem pay2_apply (a : Vec Ideal S400x10000 .f32) (s : Vec Ideal S10000x64 .f32) (b : Vec Ideal S1x64 .f32)
    (w : Vec Ideal S64x121 .f32) (p : Fin 400) (d : Fin 121) :
    k0_pay2 (F := Ideal) a s b w (ix2 p d)
      = ∑ c : Fin 64, max ((∑ l : Fin 10000, a (ix2 p l) * s (ix2 l c)) + b (ix2 (0 : Fin 1) c))
            (Ideal.ofBits .f32 0x00000000#32) * w (ix2 c d) := by
  unfold k0_pay2
  rw [shapeCast_self, shapeCast_self, mm_hw_apply]
  refine Finset.sum_congr rfl fun c _ => ?_
  rw [maximumf_apply, addf_apply, broadcast_apply, mm_as_apply, broadcastTo_1b_ab_apply]
  rfl

/-- The result rows of a block at `(p, d)`: `(∑ l, a[p,l] · h[l,d]) + b2[d]`. -/
theorem pay3_apply (a : Vec Ideal S400x10000 .f32) (h : Vec Ideal S10000x121 .f32) (b : Vec Ideal S1x121 .f32)
    (p : Fin 400) (d : Fin 121) :
    k0_pay3 (F := Ideal) a h b (ix2 p d)
      = (∑ l : Fin 10000, a (ix2 p l) * h (ix2 l d)) + b (ix2 (0 : Fin 1) d) := by
  unfold k0_pay3
  rw [shapeCast_self, addf_apply, mm_ah_apply, broadcastTo_1b_ab_apply]

/-! ## A row of the adjacency matrix through its row block -/

/-- Row `r % 400` of row block `r / 400` is row `r`: `400 · (r / 400) + r % 400 = r`. -/
theorem adjRows_apply (adj : Vec Ideal S10000x10000 .f32) (r : Fin 10000) (d : Fin 121) (l : Fin 10000) :
    adjRows adj (rowBlock (ix2 r d)) (ix2 (⟨r.val % 400, Nat.mod_lt _ (by norm_num)⟩ : Fin 400) l) = adj (ix2 r l) := by
  unfold adjRows
  refine congrArg adj (funext fun a => ?_)
  match a with
  | ⟨0, _⟩ => exact Fin.ext (by show 400 * (r.val / 400) + r.val % 400 = r.val; omega)
  | ⟨1, _⟩ => rfl

/-- The hidden array at `(r, d)`, with the row of `A` itself. -/
theorem hidden_apply (adj : Vec Ideal S10000x10000 .f32) (s : Vec Ideal S10000x64 .f32) (b : Vec Ideal S1x64 .f32)
    (w : Vec Ideal S64x121 .f32) (r : Fin 10000) (d : Fin 121) :
    hidden (F := Ideal) (adjRows adj) s b w (ix2 r d)
      = ∑ c : Fin 64, max ((∑ l : Fin 10000, adj (ix2 r l) * s (ix2 l c)) + b (ix2 (0 : Fin 1) c))
            (Ideal.ofBits .f32 0x00000000#32) * w (ix2 c d) := by
  show k0_pay2 (F := Ideal) (adjRows adj (rowBlock (ix2 r d))) s b w
      (ix2 (⟨r.val % 400, Nat.mod_lt _ (by norm_num)⟩ : Fin 400) d) = _
  rw [pay2_apply]
  refine Finset.sum_congr rfl fun c _ => ?_
  simp only [adjRows_apply]

/-- The result at `(r, d)`, with the row of `A` itself. -/
theorem logits_apply (adj : Vec Ideal S10000x10000 .f32) (h : Vec Ideal S10000x121 .f32) (b : Vec Ideal S1x121 .f32)
    (r : Fin 10000) (d : Fin 121) :
    logits (F := Ideal) (adjRows adj) h b (ix2 r d)
      = (∑ l : Fin 10000, adj (ix2 r l) * h (ix2 l d)) + b (ix2 (0 : Fin 1) d) := by
  show k0_pay3 (F := Ideal) (adjRows adj (rowBlock (ix2 r d))) h b
      (ix2 (⟨r.val % 400, Nat.mod_lt _ (by norm_num)⟩ : Fin 400) d) = _
  rw [pay3_apply]
  simp only [adjRows_apply]

/-! ## The reference's stages at an index given by coordinates -/

open Cert.ReferenceIdeal.Read

/-- `X · W1` of the reference at `(l, c)`. -/
theorem ref_v0_apply (x0 : Vec Ideal S10000x128 .f32) (x2 : Vec Ideal S128x64 .f32) (l : Fin 10000) (c : Fin 64) :
    val_main_v0 (F := Ideal) x0 x2 (ix2 l c) = ∑ f : Fin 128, x0 (ix2 l f) * x2 (ix2 f c) := by
  rw [val_main_v0_apply]
  refine Finset.sum_congr rfl fun f _ => ?_
  have el : lidx_main_v0 (ix2 l c) f = ix2 l f := by
    funext a; match a with | ⟨0, _⟩ => rfl | ⟨1, _⟩ => rfl
  have er : ridx_main_v0 (ix2 l c) f = ix2 f c := by
    funext a; match a with | ⟨0, _⟩ => rfl | ⟨1, _⟩ => rfl
  rw [el, er]

/-- `relu (A · (X · W1) + b1)` of the reference at `(r, c)`. -/
theorem ref_v5_apply (x0 : Vec Ideal S10000x128 .f32) (x1 : Vec Ideal S10000x10000 .f32) (x2 : Vec Ideal S128x64 .f32)
    (x3 : Vec Ideal S64 .f32) (r : Fin 10000) (c : Fin 64) :
    val_main_v5 (F := Ideal) x0 x1 x2 x3 (ix2 r c)
      = max ((∑ l : Fin 10000, x1 (ix2 r l) * val_main_v0 (F := Ideal) x0 x2 (ix2 l c)) + x3 (ix1 c))
          (Ideal.ofBits .f32 0x00000000#32) := by
  rw [val_main_v5_apply, val_main_v4_apply, val_main_v1_apply, val_main_v3_apply, val_main_v2_apply,
    val_main_call0_v0_apply, val_main_call0_cst_apply]
  have eb : idx_main_v2 (idx_main_v3 (ix2 r c)) = ix1 c := by
    funext a; match a with | ⟨0, _⟩ => rfl
  have es : ∀ l : Fin 10000, x1 (lidx_main_v1 (ix2 r c) l) * val_main_v0 (F := Ideal) x0 x2 (ridx_main_v1 (ix2 r c) l)
      = x1 (ix2 r l) * val_main_v0 (F := Ideal) x0 x2 (ix2 l c) := fun l => by
    have el : lidx_main_v1 (ix2 r c) l = ix2 r l := by
      funext a; match a with | ⟨0, _⟩ => rfl | ⟨1, _⟩ => rfl
    have er : ridx_main_v1 (ix2 r c) l = ix2 l c := by
      funext a; match a with | ⟨0, _⟩ => rfl | ⟨1, _⟩ => rfl
    rw [el, er]
  rw [eb, Finset.sum_congr rfl fun l _ => es l]
  rfl

/-- The hidden array of the reference at `(r, d)`. -/
theorem ref_v6_apply (x0 : Vec Ideal S10000x128 .f32) (x1 : Vec Ideal S10000x10000 .f32) (x2 : Vec Ideal S128x64 .f32)
    (x3 : Vec Ideal S64 .f32) (x4 : Vec Ideal S64x121 .f32) (r : Fin 10000) (d : Fin 121) :
    val_main_v6 (F := Ideal) x0 x1 x2 x3 x4 (ix2 r d)
      = ∑ c : Fin 64, val_main_v5 (F := Ideal) x0 x1 x2 x3 (ix2 r c) * x4 (ix2 c d) := by
  rw [val_main_v6_apply]
  refine Finset.sum_congr rfl fun c _ => ?_
  have el : lidx_main_v6 (ix2 r d) c = ix2 r c := by
    funext a; match a with | ⟨0, _⟩ => rfl | ⟨1, _⟩ => rfl
  have er : ridx_main_v6 (ix2 r d) c = ix2 c d := by
    funext a; match a with | ⟨0, _⟩ => rfl | ⟨1, _⟩ => rfl
  rw [el, er]

/-- The reference's result at `(r, d)`. -/
theorem ref_v10_apply (x0 : Vec Ideal S10000x128 .f32) (x1 : Vec Ideal S10000x10000 .f32) (x2 : Vec Ideal S128x64 .f32)
    (x3 : Vec Ideal S64 .f32) (x4 : Vec Ideal S64x121 .f32) (x5 : Vec Ideal S121 .f32) (r : Fin 10000) (d : Fin 121) :
    val_main_v10 (F := Ideal) x0 x1 x2 x3 x4 x5 (ix2 r d)
      = (∑ l : Fin 10000, x1 (ix2 r l) * val_main_v6 (F := Ideal) x0 x1 x2 x3 x4 (ix2 l d)) + x5 (ix1 d) := by
  rw [val_main_v10_apply, val_main_v7_apply, val_main_v9_apply, val_main_v8_apply]
  have eb : idx_main_v8 (idx_main_v9 (ix2 r d)) = ix1 d := by
    funext a; match a with | ⟨0, _⟩ => rfl
  have es : ∀ l : Fin 10000, x1 (lidx_main_v7 (ix2 r d) l) * val_main_v6 (F := Ideal) x0 x1 x2 x3 x4 (ridx_main_v7 (ix2 r d) l)
      = x1 (ix2 r l) * val_main_v6 (F := Ideal) x0 x1 x2 x3 x4 (ix2 l d) := fun l => by
    have el : lidx_main_v7 (ix2 r d) l = ix2 r l := by
      funext a; match a with | ⟨0, _⟩ => rfl | ⟨1, _⟩ => rfl
    have er : ridx_main_v7 (ix2 r d) l = ix2 l d := by
      funext a; match a with | ⟨0, _⟩ => rfl | ⟨1, _⟩ => rfl
    rw [el, er]
  rw [eb, Finset.sum_congr rfl fun l _ => es l]
  rfl

/-! ## The join -/

/-- The kernel's `X · W1` is the reference's. -/
theorem pay1_eq (x0 : Vec Ideal S10000x128 .f32) (x2 : Vec Ideal S128x64 .f32) :
    k0_pay1 (F := Ideal) x0 x2 = val_main_v0 (F := Ideal) x0 x2 := by
  funext i
  obtain ⟨l, c, rfl⟩ : ∃ (l : Fin 10000) (c : Fin 64), i = ix2 l c := ⟨i 0, i 1, eq_ix2 i⟩
  rw [pay1_apply, ref_v0_apply]

/-- The kernel's hidden array, read through row blocks, is the reference's. -/
theorem hidden_eq (x0 : Vec Ideal S10000x128 .f32) (x1 : Vec Ideal S10000x10000 .f32) (x2 : Vec Ideal S128x64 .f32)
    (x3 : Vec Ideal S64 .f32) (x4 : Vec Ideal S64x121 .f32) :
    hidden (F := Ideal) (adjRows x1) (val_main_v0 (F := Ideal) x0 x2) (shapeCast S1x64 x3 shapeCasts_S64_S1x64) x4
      = val_main_v6 (F := Ideal) x0 x1 x2 x3 x4 := by
  funext i
  obtain ⟨r, d, rfl⟩ : ∃ (r : Fin 10000) (d : Fin 121), i = ix2 r d := ⟨i 0, i 1, eq_ix2 i⟩
  rw [hidden_apply, ref_v6_apply]
  refine Finset.sum_congr rfl fun c _ => ?_
  rw [ref_v5_apply, shapeCast_a_1a_apply]

/-- The kernel's result, read through row blocks, is the reference's. -/
theorem logits_eq (x0 : Vec Ideal S10000x128 .f32) (x1 : Vec Ideal S10000x10000 .f32) (x2 : Vec Ideal S128x64 .f32)
    (x3 : Vec Ideal S64 .f32) (x4 : Vec Ideal S64x121 .f32) (x5 : Vec Ideal S121 .f32) :
    logits (F := Ideal) (adjRows x1) (val_main_v6 (F := Ideal) x0 x1 x2 x3 x4) (shapeCast S1x121 x5 shapeCasts_S121_S1x121)
      = val_main_v10 (F := Ideal) x0 x1 x2 x3 x4 x5 := by
  funext i
  obtain ⟨r, d, rfl⟩ : ∃ (r : Fin 10000) (d : Fin 121), i = ix2 r d := ⟨i 0, i 1, eq_ix2 i⟩
  rw [logits_apply, ref_v10_apply, shapeCast_a_1a_apply]

/-- The kernel body's two-layer graph convolution at the exact reals is the reference's value. -/
theorem gcn_eq_reference
    (x0 : Vec Ideal S10000x128 .f32) (x1 : Vec Ideal S10000x10000 .f32) (x2 : Vec Ideal S128x64 .f32)
    (x3 : Vec Ideal S64 .f32) (x4 : Vec Ideal S64x121 .f32) (x5 : Vec Ideal S121 .f32) :
    gcn (F := Ideal) x0 x1 x2 (shapeCast S1x64 x3 shapeCasts_S64_S1x64) x4
        (shapeCast S1x121 x5 shapeCasts_S121_S1x121)
      = val_main_v10 (F := Ideal) x0 x1 x2 x3 x4 x5 := by
  unfold gcn
  rw [pay1_eq, hidden_eq, logits_eq]

/-- The same, whatever proofs the two bias casts `[64] → [1, 64]` and `[121] → [1, 121]` carry. -/
theorem gcn_eq_reference_of
    (x0 : Vec Ideal S10000x128 .f32) (x1 : Vec Ideal S10000x10000 .f32) (x2 : Vec Ideal S128x64 .f32)
    (x3 : Vec Ideal S64 .f32) (x4 : Vec Ideal S64x121 .f32) (x5 : Vec Ideal S121 .f32)
    (h1 : S64.ShapeCasts S1x64) (h2 : S121.ShapeCasts S1x121) :
    gcn (F := Ideal) x0 x1 x2 (shapeCast S1x64 x3 h1) x4 (shapeCast S1x121 x5 h2)
      = val_main_v10 (F := Ideal) x0 x1 x2 x3 x4 x5 :=
  gcn_eq_reference x0 x1 x2 x3 x4 x5

end Cert.KernelIdeal.GcnIdeal

end
-- ==== Proof.lean ====
/-
  The certificate of the two-layer graph convolution kernel against its reference.

  Both programs compute  A · (relu (A · (X · W1) + b1) · W2) + b2.  The kernel does it in one pipelined call over a
  2 × 25 grid, walking the 10000 × 10000 matrix A twice in row blocks of 400 and carrying  X · W1  and the hidden
  array in two scratch arrays between grid points; the reference does it with four whole matrix products.  Over the
  extended reals every product is an exact finite sum, the kernel's per-block sums are the reference's sums row by
  row, and no law beyond that re-indexing of rows is used, so the inputs' finiteness is never opened.
  The frames of the two kernel programs are one argument, generic in the float instance (what the scratch arrays hold
  between points; the three situations of a point); the reference's frame is its run with the result dropped; the
  idealization ledger is empty.
-/
import proofs.«105198_g50946902065447_cont_8to1c4_757_4_alg».proof.Defs
import proofs.«105198_g50946902065447_cont_8to1c4_757_4_alg».proof.Proof.Gen.Kernel
import proofs.«105198_g50946902065447_cont_8to1c4_757_4_alg».proof.Proof.Gen.KernelIdeal
import proofs.«105198_g50946902065447_cont_8to1c4_757_4_alg».proof.Proof.Gen.ReferenceIdeal
import proofs.«105198_g50946902065447_cont_8to1c4_757_4_alg».proof.Proof.Gen.Pre_finite_inputs
import proofs.«105198_g50946902065447_cont_8to1c4_757_4_alg».proof.Proof.Gen.ReferenceIdeal.Run
import proofs.«105198_g50946902065447_cont_8to1c4_757_4_alg».proof.Proof.Gen.ReferenceIdeal.Read
import proofs.«105198_g50946902065447_cont_8to1c4_757_4_alg».proof.Proof.BitsRun
import proofs.«105198_g50946902065447_cont_8to1c4_757_4_alg».proof.Proof.Final
import proofs.«105198_g50946902065447_cont_8to1c4_757_4_alg».proof.Proof.GcnIdeal
import Idealize.ShloMosaic.Adequacy
import Idealize.ShloMosaic.Init

noncomputable section

namespace Cert.Proof

open Idealize.ShloMosaic Idealize.SL.Sem

/-- The word-level kernel terminates without a fault and leaves its six arguments as they were. -/
theorem frame_kernel : Cert.frame_Kernel := fun m ρ _ => Cert.Kernel.Gcn.frame m ρ

/-- So does the idealized kernel. -/
theorem frame_kernelIdeal : Cert.frame_KernelIdeal := fun m ρ _ => Cert.KernelIdeal.Gcn.frame m ρ

/-- The reference is straight-line host code: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals the kernel's result array and the reference's are the same function of arguments that agree. -/
theorem algebraic : Cert.algebraic_KernelIdeal_ReferenceIdeal := by
  intro m ρ m' ρ' _ hagree
  refine ⟨_, Cert.KernelIdeal.Gcn.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2.1, (hagree c).2.2.2.1,
    (hagree c).2.2.2.2.1, (hagree c).2.2.2.2.2]
  exact (Cert.KernelIdeal.GcnIdeal.gcn_eq_reference _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
